-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x256 : Shape := ⟨2, ![128, 256]⟩
abbrev S1x256 : Shape := ⟨2, ![1, 256]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1000000 32) (main_arg2 : FVec F S100000x128 .f32) (main_arg3 : FVec F S128x256 .f32) (main_arg4 : FVec F S1x256 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S1x256 .f32 := Host.absf main_arg4
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg5 main_v13 main_v16
-- ==== Kernel.lean ====
abbrev S100000x128 : Shape := ⟨2, ![100000, 128]⟩
abbrev S2x1000000 : Shape := ⟨2, ![2, 1000000]⟩
abbrev S128x256 : Shape := ⟨2, ![128, 256]⟩
abbrev S1x256 : Shape := ⟨2, ![1, 256]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S100000x1 : Shape := ⟨2, ![100000, 1]⟩
abbrev S5000x128 : Shape := ⟨2, ![5000, 128]⟩
abbrev S5000x1 : Shape := ⟨2, ![5000, 1]⟩
abbrev S5000 : Shape := ⟨1, ![5000]⟩
abbrev S100000 : Shape := ⟨1, ![100000]⟩
abbrev S1000000x1 : Shape := ⟨2, ![1000000, 1]⟩

abbrev nBuf : Space → Nat
  | .hbm => 63
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S100000x128, .f32⟩
  | .hbm, ⟨3, _⟩ => ⟨S128x256, .f32⟩
  | .hbm, ⟨4, _⟩ => ⟨S1x256, .f32⟩
  | .hbm, ⟨5, _⟩ => ⟨S1, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S1000000, .i32⟩
  | .hbm, ⟨11, _⟩ => ⟨S_, .i32⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S128x128, .f32⟩
  | .hbm, ⟨16, _⟩ => ⟨S128x128, .f32⟩
  | .hbm, ⟨17, _⟩ => ⟨S1x128, .f32⟩
  | .hbm, ⟨18, _⟩ => ⟨S1x128, .f32⟩
  | .hbm, ⟨19, _⟩ => ⟨S128, .f32⟩
  | .hbm, ⟨20, _⟩ => ⟨S128x128, .f32⟩
  | .hbm, ⟨21, _⟩ => ⟨S128x1, .f32⟩
  | .hbm, ⟨22, _⟩ => ⟨S128x1, .f32⟩
  | .hbm, ⟨23, _⟩ => ⟨S128, .f32⟩
  | .hbm, ⟨24, _⟩ => ⟨S128x128, .f32⟩
  | .hbm, ⟨25, _⟩ => ⟨S128x1, .f32⟩
  | .hbm, ⟨26, _⟩ => ⟨S128x1, .f32⟩
  | .hbm, ⟨27, _⟩ => ⟨S128, .f32⟩
  | .hbm, ⟨28, _⟩ => ⟨S100000x1, .f32⟩
  | .hbm, ⟨29, _⟩ => ⟨S100000x1, .f32⟩
  | .hbm, ⟨30, _⟩ => ⟨S100000x1, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000, .f32⟩
  | .hbm, ⟨52, _⟩ => ⟨S1000000, .f32⟩
  | .hbm, ⟨53, _⟩ => ⟨S_, .i32⟩
  | .hbm, ⟨54, _⟩ => ⟨S1000000, .i32⟩
  | .hbm, ⟨55, _⟩ => ⟨S1000000, .i1⟩
  | .hbm, ⟨56, _⟩ => ⟨S_, .i32⟩
  | .hbm, ⟨57, _⟩ => ⟨S1000000, .i32⟩
  | .hbm, ⟨58, _⟩ => ⟨S1000000, .i32⟩
  | .hbm, ⟨59, _⟩ => ⟨S1000000, .i32⟩
  | .hbm, ⟨60, _⟩ => ⟨S1000000x1, .i32⟩
  | .hbm, ⟨61, _⟩ => ⟨S1000000, .f32⟩
  | .hbm, ⟨62, _⟩ => ⟨S1000000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128, .f32⟩
  | .local _ .vmem, ⟨5, _⟩ => ⟨S128, .f32⟩
  | .local _ .vmem, ⟨6, _⟩ => ⟨S128, .f32⟩
  | .local _ .vmem, ⟨7, _⟩ => ⟨S1, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_0 : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_c_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  reducesTo_S1000000_S_d0 : S1000000.ReducesTo [0] S_
  h_S_ : 0 < S_.numel
  bcast_S_S1000000 : S_.BroadcastsInDim S1000000 (![] : Fin 0 → Fin S1000000.rank)
  slices_S128x256_S128x128_0_0 : S128x256.Slices ![0, 0] S128x128
  slices_S128x256_S128x128_0_128 : S128x256.Slices ![0, 128] S128x128
  slices_S1x256_S1x128_0_0 : S1x256.Slices ![0, 0] S1x128
  slices_S1x256_S1x128_0_128 : S1x256.Slices ![0, 128] S1x128
  shapeCasts_S1x128_S128 : S1x128.ShapeCasts S128
  transposes_S128x128_S128x128_1_0 : S128x128.Transposes [1, 0] S128x128
  transposes_S1x128_S128x1_1_0 : S1x128.Transposes [1, 0] S128x1
  shapeCasts_S128x1_S128 : S128x1.ShapeCasts S128
  inb_S5000x128_S5000x128_0_0 : ∀ a, (![0, 0] : Fin 2 → Nat) a + S5000x128.size a ≤ S5000x128.size a
  h_S5000x128 : 0 < S5000x128.numel
  inb_S128_S128_0 : ∀ a, (![0] : Fin 1 → Nat) a + S128.size a ≤ S128.size a
  h_S128 : 0 < S128.numel
  shapeCasts_S128_S128 : S128.ShapeCasts S128
  inb_S1_S1_0 : ∀ a, (![0] : Fin 1 → Nat) a + S1.size a ≤ S1.size a
  h_S1 : 0 < S1.numel
  inpos_S1_p0 : ∀ a, (![0] : Fin 1 → Nat) a < S1.size a
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  bcast_S1000000_S1000000x1_0 : S1000000.BroadcastsInDim S1000000x1 (![0] : Fin 1 → Fin S1000000x1.rank)
  dot_S128x128_S128x1_S128x1_1_0_0_1_n_n_wf : DotDims.WF S128x128 S128x1 S128x1 [1] [0] [0] [1] [] []
  gather_S100000_S1000000x1_S1000000_n_0_n_n_0_1_1_wf : GatherDims.WF S100000 S1000000x1 S1000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x1.size a ≤ S100000x1.size a
  hwx0_6 : ∀ i : grid0.Coords, EltTy.bits .f32 = 32 ∨ (Rect.block (s := S100000x1) S5000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x1.size a ≤ S100000x1.size a
  hwx0_7 : ∀ i : grid0.Coords, EltTy.bits .f32 = 32 ∨ (Rect.block (s := S100000x1) S5000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x1.size a ≤ S100000x1.size a
  hwx0_8 : ∀ i : grid0.Coords, EltTy.bits .f32 = 32 ∨ (Rect.block (s := S100000x1) S5000x1.size (cc0_transform_8 i) (hinb0_8 i)).WholeWords (EltTy.packing .f32)

variable [Facts₀]

def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21_0) S5000x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_1) S5000x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_2) S5000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x256 : Shape := ⟨2, ![128, 256]⟩
abbrev S1x256 : Shape := ⟨2, ![1, 256]⟩
abbrev S1 : Shape := ⟨1, ![1]⟩
abbrev S_ : Shape := ⟨0, ![]⟩
abbrev S1000000 : Shape := ⟨1, ![1000000]⟩
abbrev S1x1000000 : Shape := ⟨2, ![1, 1000000]⟩
abbrev S1000000x1 : Shape := ⟨2, ![1000000, 1]⟩
abbrev S1000000x128 : Shape := ⟨2, ![1000000, 128]⟩
abbrev S1000000x256 : Shape := ⟨2, ![1000000, 256]⟩
abbrev S256x128 : Shape := ⟨2, ![256, 128]⟩
abbrev S256x1 : Shape := ⟨2, ![256, 1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S100000x128, .f32⟩
  | .hbm, ⟨3, _⟩ => ⟨S128x256, .f32⟩
  | .hbm, ⟨4, _⟩ => ⟨S1x256, .f32⟩
  | .hbm, ⟨5, _⟩ => ⟨S1, .f32⟩
  | .hbm, ⟨6, _⟩ => ⟨S_, .i32⟩
  | .hbm, ⟨7, _⟩ => ⟨S1000000, .i32⟩
  | .hbm, ⟨8, _⟩ => ⟨S_, .i32⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .f32⟩
  | .hbm, ⟨23, _⟩ => ⟨S1x1000000, .i32⟩
  | .hbm, ⟨24, _⟩ => ⟨S1000000, .i32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x128, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x128, .f32⟩
  | .hbm, ⟨43, _⟩ => ⟨S1000000x256, .f32⟩
  | .hbm, ⟨44, _⟩ => ⟨S256x128, .f32⟩
  | .hbm, ⟨45, _⟩ => ⟨S1000000x128, .f32⟩
  | .hbm, ⟨46, _⟩ => ⟨S1000000x256, .f32⟩
  | .hbm, ⟨47, _⟩ => ⟨S256x1, .f32⟩
  | .hbm, ⟨48, _⟩ => ⟨S1000000x1, .f32⟩
  | .hbm, ⟨49, _⟩ => ⟨S1x1, .f32⟩
  | .hbm, ⟨50, _⟩ => ⟨S1000000x1, .f32⟩
  | .hbm, ⟨51, _⟩ => ⟨S1000000x1, .f32⟩
  | .hbm, ⟨52, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_c_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  reducesTo_S2x1000000_S1000000_d0 : S2x1000000.ReducesTo [0] S1000000
  h_S_ : 0 < S_.numel
  reducesTo_S1000000_S_d0 : S1000000.ReducesTo [0] S_
  bcast_S_S1000000 : S_.BroadcastsInDim S1000000 (![] : Fin 0 → Fin S1000000.rank)
  slices_S2x1000000_S1x1000000_0_0 : S2x1000000.Slices ![0, 0] S1x1000000
  shapeCasts_S1x1000000_S1000000 : S1x1000000.ShapeCasts S1000000
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x128_S1000000x128_S1000000x256_d1 : Shape.Concatenates [S1000000x128, S1000000x128] S1000000x256 1
  transposes_S128x256_S256x128_1_0 : S128x256.Transposes [1, 0] S256x128
  transposes_S1x256_S256x1_1_0 : S1x256.Transposes [1, 0] S256x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x256_S256x1_S1000000x1_1_0_0_1_n_n_wf : DotDims.WF S1000000x256 S256x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x256_S256x1_S1000000x1_1_0_0_1_n_n : DotDims S1000000x256 S256x1 S1000000x1 where
  lhsContracting := [1]
  rhsContracting := [0]
  lhsNonContracting := [0]
  rhsNonContracting := [1]
  lhsBatch := []
  rhsBatch := []
  wf := dot_S1000000x256_S256x1_S1000000x1_1_0_0_1_n_n_wf

class Facts : Prop extends Facts₀ where

variable [Facts]
-- ==== Proof.Spec.lean ====
/-
  The mathematics of one edge's score, stated once for both programs.

  An edge `e` has two endpoint ids `src e`, `dst e` and a query id `qid e = max (src e) (dst e) - min over all edges of
  that maximum`. Each of the three ids names a row (a negative id counts from the end, and the gather clamps the
  row into the table): `u` and `v` are the rows of the node table at the two endpoints, `q` the row of the second table at
  the query id. With `Wq : 128 × 256`, `Wo : 256` and a bias `bo`:

  * the reference joins `v` and `q` into one vector of length 256, multiplies it by the transpose of `Wq` (the hidden
    vector, length 128), joins `u` and the hidden vector, and takes the product with `Wo` plus the bias
    (`referenceForm`);
  * the kernel folds the two layers first: three weight vectors of length 128 (`Wo`'s lower half; `Wq`'s lower and upper
    column blocks each contracted with `Wo`'s upper half), one dot product per row and table, and the sum of the three
    with the bias added to the third (`kernelForm`).

  The two are equal when every entry is a real number: distribute the product with `Wo`'s upper half over the two
  sums that make up the hidden vector and exchange the order of the two summations (`kernelForm_eq_referenceForm`,
  in the module Algebra).
-/
import Idealize.ShloMosaic.PureOps.Ideal
import Idealize.ShloMosaic.PureOps.Contract
import Idealize.ShloMosaic.Lib.ValueIdx

noncomputable section

namespace Cert.EdgeScore

open Idealize.ShloMosaic Idealize.ShloMosaic.ValueIdx

/-! ## The joined axis -/

/-- Position `k` of the lower half of the joined axis of length 256. -/
def lo (k : Fin 128) : Fin 256 := ⟨k.val, by omega⟩
/-- Position `k` of the upper half: `128 + k`. -/
def hi (k : Fin 128) : Fin 256 := ⟨128 + k.val, by omega⟩

/-- Two vectors of length 128 joined into one of length 256. -/
def join (a b : Fin 128 → EReal) (l : Fin 256) : EReal :=
  if h : l.val < 128 then a ⟨l.val, h⟩ else b ⟨l.val - 128, by omega⟩

theorem join_lo (a b : Fin 128 → EReal) (k : Fin 128) : join a b (lo k) = a k := by
  unfold join lo; rw [dif_pos k.isLt]
theorem join_hi (a b : Fin 128 → EReal) (k : Fin 128) : join a b (hi k) = b k := by
  unfold join hi
  rw [dif_neg (by show ¬ (128 + k.val < 128); omega)]
  exact congrArg b (Fin.ext (by show 128 + k.val - 128 = k.val; omega))

/-! ## One edge's score, in the two forms -/

section Forms
variable (u v q : Fin 128 → EReal) (Wq : Fin 128 → Fin 256 → EReal) (Wo : Fin 256 → EReal) (bo : EReal)

/-- The folded weight for the second endpoint's row: `Wq`'s lower column block contracted with `Wo`'s upper half. -/
def foldLower (k : Fin 128) : EReal := ∑ j : Fin 128, Wq j (lo k) * Wo (hi j)
/-- The folded weight for the query row: `Wq`'s upper column block contracted with `Wo`'s upper half. -/
def foldUpper (k : Fin 128) : EReal := ∑ j : Fin 128, Wq j (hi k) * Wo (hi j)

/-- The kernel's form: three dot products, the bias added to the third. -/
def kernelForm : EReal :=
  ((∑ k : Fin 128, u k * Wo (lo k)) + ∑ k : Fin 128, v k * foldLower Wq Wo k)
    + ((∑ k : Fin 128, q k * foldUpper Wq Wo k) + bo)

/-- The reference's hidden vector: the join of `v` and `q` times the transpose of `Wq`. -/
def hidden (j : Fin 128) : EReal := ∑ l : Fin 256, join v q l * Wq j l

/-- The reference's form: the join of `u` and the hidden vector times `Wo`, plus the bias. -/
def referenceForm : EReal := (∑ l : Fin 256, join u (hidden v q Wq) l * Wo l) + bo

end Forms

/-! ## The rows an edge reads -/

abbrev SEdges : Shape := ⟨1, ![1000000]⟩
abbrev SPairs : Shape := ⟨2, ![2, 1000000]⟩
abbrev SScalar : Shape := ⟨0, ![]⟩

theorem edges_reduce_all : SEdges.ReducesTo [0] SScalar := by decide
theorem scalar_pos : 0 < SScalar.numel := by decide

/-- A start index word as the gather reads it: signed, clamped into `[0, 99999]`. -/
def rowOf (w : BitVec 32) : Fin 100000 := ⟨min w.toInt.toNat 99999, by omega⟩

/-- A negative id counts from the end of the table of 100000 rows. -/
def wrap (w : BitVec 32) : BitVec 32 := Scalar.select (IntOp.cmpi .slt w 0#32) (IntOp.addi w 100000#32) w

/-- The larger of an edge's two endpoint ids (signed), for every edge. -/
def maxWord (ei : IVec SPairs 32) : IVec SEdges 32 := fun i => IntOp.maxsi (ei (ix2 0 (i 0))) (ei (ix2 1 (i 0)))

/-- The smallest (signed) entry of a vector over the edges, folded from the largest signed word. -/
def minAll (x : IVec SEdges 32) : BitVec 32 :=
  Host.reduce IntOp.minsi x (constantI SScalar 32 2147483647#32) edges_reduce_all scalar_pos ix0

/-- The query id of edge `e`: the larger endpoint id less the smallest such maximum over all edges. -/
def qidWord (ei : IVec SPairs 32) (e : Fin 1000000) : BitVec 32 :=
  IntOp.subi (maxWord ei (ix1 e)) (minAll (maxWord ei))

/-- The rows edge `e` reads: at its first endpoint, its second endpoint, and its query id. -/
def rowSrc (ei : IVec SPairs 32) (e : Fin 1000000) : Fin 100000 := rowOf (wrap (ei (ix2 0 e)))
def rowDst (ei : IVec SPairs 32) (e : Fin 1000000) : Fin 100000 := rowOf (wrap (ei (ix2 1 e)))
def rowQid (ei : IVec SPairs 32) (e : Fin 1000000) : Fin 100000 := rowOf (wrap (qidWord ei e))

/-! ## The score of every edge as one function of the six arrays -/

section Whole
variable (z : (⟨2, ![100000, 128]⟩ : Shape).Idx → EReal) (ei : IVec SPairs 32) (z0 : (⟨2, ![100000, 128]⟩ : Shape).Idx → EReal)
  (Wq : (⟨2, ![128, 256]⟩ : Shape).Idx → EReal) (Wo : (⟨2, ![1, 256]⟩ : Shape).Idx → EReal) (bo : (⟨1, ![1]⟩ : Shape).Idx → EReal)

/-- Every edge's score in the kernel's form. -/
def kernelScore : SEdges.Idx → EReal := fun i =>
  kernelForm (fun k => z (ix2 (rowSrc ei (i 0)) k)) (fun k => z (ix2 (rowDst ei (i 0)) k)) (fun k => z0 (ix2 (rowQid ei (i 0)) k))
    (fun j l => Wq (ix2 j l)) (fun l => Wo (ix2 0 l)) (bo (ix1 0))

/-- Every edge's score in the reference's form. -/
def referenceScore : SEdges.Idx → EReal := fun i =>
  referenceForm (fun k => z (ix2 (rowSrc ei (i 0)) k)) (fun k => z (ix2 (rowDst ei (i 0)) k)) (fun k => z0 (ix2 (rowQid ei (i 0)) k))
    (fun j l => Wq (ix2 j l)) (fun l => Wo (ix2 0 l)) (bo (ix1 0))

end Whole

end Cert.EdgeScore

end
-- ==== Proof.LibGather.lean ====
/-
  A row gather read at an index.

  `x[idx]` of a table `x` at an integer vector `idx` of length `E` lowers to `stablehlo.gather` with the indices
  reshaped to `[E, 1]` (the index vector on axis 1), the table's first axis collapsed and named by the start index
  map, and slice sizes of one row. The result's row `e` is the table's row at the start index `idx[e, 0]` read as a
  signed integer and clamped into `[0, N − 1]`, as StableHLO clamps every start index so that the slice fits.

  Two shapes: a table of scalars `[N]` (result `[E]`), and a table of rows `[N, C]` with the whole row as the slice
  (result `[E, C]`: entry `(e, c)` is the table's `(row, c)`).
-/
import Idealize.ShloMosaic.PureOps.ShapeOps
import Idealize.ShloMosaic.Lib.ValueIdx

noncomputable section

namespace Idealize.ShloMosaic.RowGather

open Idealize.ShloMosaic Idealize.ShloMosaic.ValueIdx

variable {α : Type}

/-- The row a start index word names in a table of `N` rows: the word read signed, clamped into `[0, N − 1]`. -/
def clampRow (N : Nat) (hN : 0 < N) {w : Nat} (v : BitVec w) : Fin N := ⟨min v.toInt.toNat (N - 1), by omega⟩

/-! ## A table of scalars -/

/-- The dimension numbers of `x[idx]` for `x : [N]`, the indices as `[E, 1]`, the result `[E]`. -/
abbrev scalarDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the table at the clamped start index `idx[e, 0]`. -/
theorem gather_scalar_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (scalarDims N E wf) x idx j = x (ix1 (clampRow N hN (idx (ix2 (j 0) (0 : Fin 1))))) := by
  unfold Host.gather
  congr 1
  funext a
  obtain rfl : a = 0 := Subsingleton.elim _ _
  refine Fin.ext ?_
  show (scalarDims N E wf).start j idx 0 + (scalarDims N E wf).batchCoord j 0 + (scalarDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (scalarDims N E wf).startIndexMap from List.mem_singleton.mpr rfl)]
  have hsi : (scalarDims N E wf).siIdx j ⟨List.idxOf (0 : Fin 1) (scalarDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-! ## A table of rows -/

/-- The dimension numbers of `x[idx]` for `x : [N, C]`, the indices as `[E, 1]`, the result `[E, C]`: whole rows. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the table's row axis the operand index is the clamped start index `idx[e, 0]`. -/
theorem rowDims_operandIdx_zero {N C E w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    ((rowDims N C E wf).operandIdx j idx (0 : Fin 2)).val = (clampRow N hN (idx (ix2 (j 0) (0 : Fin 1)))).val := by
  show (rowDims N C E wf).start j idx (0 : Fin 2) + (rowDims N C E wf).batchCoord j (0 : Fin 2)
    + (rowDims N C E wf).offCoord j (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx j ⟨List.idxOf (0 : Fin 2) (rowDims N C E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the table's column axis the operand index is the result's column. -/
theorem rowDims_operandIdx_one {N C E w : Nat}
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    ((rowDims N C E wf).operandIdx j idx (1 : Fin 2)).val = (j 1).val := by
  show (rowDims N C E wf).start j idx (1 : Fin 2) + (rowDims N C E wf).batchCoord j (1 : Fin 2)
    + (rowDims N C E wf).offCoord j (1 : Fin 2) = _
  have hnot : ¬ (1 : Fin 2) ∈ (rowDims N C E wf).startIndexMap := by
    show ¬ (1 : Fin 2) ∈ ([0] : List (Fin 2)); decide
  have hkept : (1 : Fin 2) ∈ (rowDims N C E wf).sKept :=
    (GatherDims.mem_sKept _ _).mpr ⟨by show ¬ (1 : Fin 2) ∈ ([0] : List (Fin 2)); decide, List.not_mem_nil⟩
  have h0 : (rowDims N C E wf).start j idx (1 : Fin 2) = 0 := by
    unfold GatherDims.start; rw [dif_neg hnot]
  rw [h0, GatherDims.batchCoord_eq_zero _ _ _ List.not_mem_nil]
  simp only [Nat.zero_add, Nat.add_zero]
  unfold GatherDims.offCoord
  rw [dif_pos hkept]
  rfl

/-- Entry `(e, c)` of the gather is the table's entry `c` of the row at the clamped start index `idx[e, 0]`. -/
theorem gather_row_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowDims N C E wf) x idx j = x (ix2 (clampRow N hN (idx (ix2 (j 0) (0 : Fin 1)))) (j 1)) := by
  unfold Host.gather
  congr 1
  funext a
  refine Fin.ext ?_
  match a with
  | ⟨0, _⟩ => exact rowDims_operandIdx_zero hN wf idx j
  | ⟨1, _⟩ => exact rowDims_operandIdx_one wf idx j

end Idealize.ShloMosaic.RowGather

end
-- ==== Proof.RefValue.lean ====
/-
  The reference program's result, read index by index, is the specification's score in the reference's form.

  Every stage of the program is read at one edge `e` (and, for the arrays of rows, one column): the three id words
  (each endpoint id, and the query id `max - min over all edges of the max`, wrapped when negative), the three
  gathered rows, the join of the second endpoint's row and the query row, the hidden vector, the join of the first
  endpoint's row and the hidden vector, and the last product with the bias added.
-/
import proofs.«424262_j19078244729115_3_alg».proof.Proof.RefRead
import proofs.«424262_j19078244729115_3_alg».proof.Proof.Spec
import proofs.«424262_j19078244729115_3_alg».proof.Proof.LibGather
import Idealize.ShloMosaic.Lib.Pipeline.Value
import Idealize.ShloMosaic.Lib.ValueIdx
import Idealize.ShloMosaic.PureOps.Reduce
import Idealize.ShloMosaic.PureOps.Ideal

noncomputable section

namespace Cert.ReferenceIdeal.RefValue

open Cert.ReferenceIdeal Cert.ReferenceIdeal.Gen Cert.ReferenceIdeal.ReadP Cert.EdgeScore Idealize.ShloMosaic
  Idealize.ShloMosaic.ValueIdx Idealize.ShloMosaic.RowGather

/-! ## The id words at an edge -/

/-- The first row of the pairs, flattened: entry `e` is the first endpoint id of edge `e`. -/
theorem v5_at (x1 : (⟨S2x1000000, .i32⟩ : BufTy).Contents (Elt Ideal)) (e : Fin 1000000) :
    val_main_v5 (F := Ideal) x1 (ix1 e) = x1 (ix2 0 e) := by
  rw [val_main_v5_apply, val_main_v4_apply]
  refine congrArg x1 (funext fun a => Fin.ext ?_)
  match a with
  | ⟨0, _⟩ => rfl
  | ⟨1, _⟩ => exact Nat.mod_eq_of_lt e.isLt

/-- The second row of the pairs, flattened: entry `e` is the second endpoint id of edge `e`. -/
theorem v14_at (x1 : (⟨S2x1000000, .i32⟩ : BufTy).Contents (Elt Ideal)) (e : Fin 1000000) :
    val_main_v14 (F := Ideal) x1 (ix1 e) = x1 (ix2 1 e) := by
  rw [val_main_v14_apply, val_main_v13_apply]
  refine congrArg x1 (funext fun a => Fin.ext ?_)
  match a with
  | ⟨0, _⟩ => rfl
  | ⟨1, _⟩ => exact Nat.mod_eq_of_lt e.isLt

/-- The first endpoint id, wrapped. -/
theorem v10_at (x1 : (⟨S2x1000000, .i32⟩ : BufTy).Contents (Elt Ideal)) (e : Fin 1000000) :
    val_main_v10 (F := Ideal) x1 (ix1 e) = wrap (x1 (ix2 0 e)) := by
  rw [val_main_v10_apply, val_main_v7_apply, val_main_v9_apply, val_main_v6_apply, val_main_v8_apply,
    val_main_c_1_apply, val_main_c_2_apply, v5_at]
  rfl

/-- The second endpoint id, wrapped. -/
theorem v19_at (x1 : (⟨S2x1000000, .i32⟩ : BufTy).Contents (Elt Ideal)) (e : Fin 1000000) :
    val_main_v19 (F := Ideal) x1 (ix1 e) = wrap (x1 (ix2 1 e)) := by
  rw [val_main_v19_apply, val_main_v16_apply, val_main_v18_apply, val_main_v15_apply, val_main_v17_apply,
    val_main_c_3_apply, val_main_c_4_apply, v14_at]
  rfl

/-- The pairs reduce over their first axis (the axis of extent 2) to one word per edge. -/
theorem pairs_reduce : S2x1000000.Reduces [0] S1000000 := by decide

/-- Over edge `e`, the pair index with `k` on the reduced axis is `(k, e)`. -/
theorem lift_pairs (e : Fin 1000000) (k : Fin 2) : pairs_reduce.lift (ix1 e) k = ix2 k e :=
  funext fun a => Fin.ext (by
    match a with
    | ⟨0, _⟩ => rfl
    | ⟨1, _⟩ => rfl)

/-- The signed maximum of a word and the smallest signed word is the word. -/
theorem maxsi_intMin (a : BitVec 32) : IntOp.maxsi a 2147483648#32 = a := by
  have h1 : (2147483648#32 : BitVec 32).toInt = -2147483648 := by decide
  have h2 : -2147483648 ≤ a.toInt := by have := BitVec.le_toInt a; simpa using this
  simp only [IntOp.maxsi, BitVec.slt, decide_eq_true_eq]
  split_ifs with h
  · rfl
  · apply BitVec.eq_of_toInt_eq; omega

/-- A fold over the two coordinates of an axis of extent 2. -/
theorem fold_fin2 {α : Type} (op : α → α → α) [Std.Commutative op] [Std.Associative op] (b : α) (f : Fin 2 → α) :
    (Finset.univ : Finset (Fin 2)).fold op b f = op (f 0) (op (f 1) b) := by
  rw [show (Finset.univ : Finset (Fin 2)) = {0, 1} from by decide, Finset.fold_insert (by decide),
    Finset.fold_singleton]

/-- The maximum over the axis of extent 2, folded from the smallest signed word, is the larger of the two endpoint ids:
    `max (x 0) (max (x 1) INT_MIN) = max (x 0) (x 1)`. -/
theorem v0_eq (x1 : (⟨S2x1000000, .i32⟩ : BufTy).Contents (Elt Ideal)) :
    val_main_v0 (F := Ideal) x1 = maxWord x1 := by
  funext i
  obtain ⟨e, rfl⟩ : ∃ e : Fin 1000000, i = ix1 e := ⟨i 0, eq_ix1 i⟩
  unfold val_main_v0
  rw [Host.reduce_eq_fold_single IntOp.maxsi x1 _ reducesTo_S2x1000000_S1000000_d0 pairs_reduce h_S_ (ix1 e)]
  refine (fold_fin2 IntOp.maxsi (2147483648#32) (fun k => x1 (pairs_reduce.lift (ix1 e) k))).trans ?_
  rw [maxsi_intMin]
  exact congrArg₂ IntOp.maxsi (congrArg x1 (lift_pairs e 0)) (congrArg x1 (lift_pairs e 1))

/-- The minimum over all edges of the larger endpoint id. -/
theorem v1_at (x1 : (⟨S2x1000000, .i32⟩ : BufTy).Contents (Elt Ideal)) :
    val_main_v1 (F := Ideal) x1 ix0 = minAll (maxWord x1) := by
  unfold val_main_v1
  rw [v0_eq]
  rfl

/-- The query id of edge `e`. -/
theorem v3_at (x1 : (⟨S2x1000000, .i32⟩ : BufTy).Contents (Elt Ideal)) (e : Fin 1000000) :
    val_main_v3 (F := Ideal) x1 (ix1 e) = qidWord x1 e := by
  rw [val_main_v3_apply, val_main_v2_apply, v0_eq]
  show IntOp.subi (maxWord x1 (ix1 e)) (val_main_v1 (F := Ideal) x1 ix0) = _
  rw [v1_at]
  rfl

/-- The query id, wrapped. -/
theorem v26_at (x1 : (⟨S2x1000000, .i32⟩ : BufTy).Contents (Elt Ideal)) (e : Fin 1000000) :
    val_main_v26 (F := Ideal) x1 (ix1 e) = wrap (qidWord x1 e) := by
  rw [val_main_v26_apply, val_main_v23_apply, val_main_v25_apply, val_main_v22_apply, val_main_v24_apply,
    val_main_c_5_apply, val_main_c_6_apply, v3_at]
  rfl

/-! ## The three gathered rows at an edge and a column -/

/-- The gather of whole rows of a table of 100000 rows of length 128 at one start index per edge: entry `(e, k)` is the
    table's entry `k` of the row the start index word of edge `e` names. -/
theorem gather_at (x : (⟨S100000x128, .f32⟩ : BufTy).Contents (Elt Ideal))
    (idx : (⟨S1000000x1, .i32⟩ : BufTy).Contents (Elt Ideal)) (e : Fin 1000000) (k : Fin 128) :
    Host.gather gather_S100000x128_S1000000x1_S1000000x128_1_0_n_n_0_1_1128 x idx (ix2 e k)
      = x (ix2 (rowOf (idx (ix2 e (0 : Fin 1)))) k) := by
  have hd : gather_S100000x128_S1000000x1_S1000000x128_1_0_n_n_0_1_1128
      = rowDims 100000 128 1000000 gather_S100000x128_S1000000x1_S1000000x128_1_0_n_n_0_1_1128_wf := rfl
  rw [hd, gather_row_apply (N := 100000) (by decide)]
  rfl

/-- The column of start indices made of a vector over the edges reads the vector at the edge. -/
theorem col_idx (e : Fin 1000000) : idx_main_v11 (ix2 e (0 : Fin 1)) = ix1 e :=
  funext fun a => Fin.ext (by
    match a with
    | ⟨0, _⟩ => rfl)

theorem v11_at (x1 : (⟨S2x1000000, .i32⟩ : BufTy).Contents (Elt Ideal)) (e : Fin 1000000) :
    val_main_v11 (F := Ideal) x1 (ix2 e (0 : Fin 1)) = wrap (x1 (ix2 0 e)) := by
  rw [val_main_v11_apply, col_idx, v10_at]

theorem v20_at (x1 : (⟨S2x1000000, .i32⟩ : BufTy).Contents (Elt Ideal)) (e : Fin 1000000) :
    val_main_v20 (F := Ideal) x1 (ix2 e (0 : Fin 1)) = wrap (x1 (ix2 1 e)) := by
  rw [val_main_v20_apply]
  exact (congrArg (val_main_v19 (F := Ideal) x1) (col_idx e)).trans (v19_at x1 e)

theorem v27_at (x1 : (⟨S2x1000000, .i32⟩ : BufTy).Contents (Elt Ideal)) (e : Fin 1000000) :
    val_main_v27 (F := Ideal) x1 (ix2 e (0 : Fin 1)) = wrap (qidWord x1 e) := by
  rw [val_main_v27_apply]
  exact (congrArg (val_main_v26 (F := Ideal) x1) (col_idx e)).trans (v26_at x1 e)

/-- The first endpoint's row of the node table. -/
theorem v12_at (x0 : (⟨S100000x128, .f32⟩ : BufTy).Contents (Elt Ideal))
    (x1 : (⟨S2x1000000, .i32⟩ : BufTy).Contents (Elt Ideal)) (e : Fin 1000000) (k : Fin 128) :
    val_main_v12 (F := Ideal) x0 x1 (ix2 e k) = x0 (ix2 (rowSrc x1 e) k) := by
  unfold val_main_v12
  rw [gather_at, v11_at]
  rfl

/-- The second endpoint's row of the node table. -/
theorem v21_at (x0 : (⟨S100000x128, .f32⟩ : BufTy).Contents (Elt Ideal))
    (x1 : (⟨S2x1000000, .i32⟩ : BufTy).Contents (Elt Ideal)) (e : Fin 1000000) (k : Fin 128) :
    val_main_v21 (F := Ideal) x0 x1 (ix2 e k) = x0 (ix2 (rowDst x1 e) k) := by
  unfold val_main_v21
  rw [gather_at, v20_at]
  rfl

/-- The query id's row of the second table. -/
theorem v28_at (x1 : (⟨S2x1000000, .i32⟩ : BufTy).Contents (Elt Ideal))
    (x2 : (⟨S100000x128, .f32⟩ : BufTy).Contents (Elt Ideal)) (e : Fin 1000000) (k : Fin 128) :
    val_main_v28 (F := Ideal) x1 x2 (ix2 e k) = x2 (ix2 (rowQid x1 e) k) := by
  unfold val_main_v28
  rw [gather_at, v27_at]
  rfl

/-! ## The two joins -/

/-- Two arrays of rows of length 128 laid side by side: entry `(e, l)` is the join of the two rows `e` at `l`. -/
theorem cat_at (a b : (⟨S1000000x128, .f32⟩ : BufTy).Contents (Elt Ideal)) (e : Fin 1000000) (l : Fin 256) :
    concatenate S1000000x256 1 [⟨S1000000x128, a⟩, ⟨S1000000x128, b⟩]
        concatenates_S1000000x128_S1000000x128_S1000000x256_d1 (ix2 e l)
      = join (fun k => a (ix2 e k)) (fun k => b (ix2 e k)) l := by
  unfold join
  by_cases h : l.val < 128
  · rw [dif_pos h]
    exact concatenate_pair_apply_left (t := S1000000x256) (s₁ := S1000000x128) (s₂ := S1000000x128) 1 a b
      concatenates_S1000000x128_S1000000x128_S1000000x256_d1 (ix2 e l) rfl (ix2 e (⟨l.val, h⟩ : Fin 128)) (fun c => by
      match c with
      | ⟨0, _⟩ => rfl
      | ⟨1, _⟩ => rfl)
  · rw [dif_neg h]
    exact concatenate_pair_apply_right (t := S1000000x256) (s₁ := S1000000x128) (s₂ := S1000000x128) 1 a b
      concatenates_S1000000x128_S1000000x128_S1000000x256_d1 (ix2 e l) rfl rfl
      (ix2 e (⟨l.val - 128, by omega⟩ : Fin 128))
      (fun c hc => by
        match c with
        | ⟨0, _⟩ => rfl
        | ⟨1, _⟩ => exact absurd rfl hc)
      (by show (l.val - 128) + 128 = l.val; omega)

/-- The join of the second endpoint's row and the query row. -/
theorem v29_at (x0 : (⟨S100000x128, .f32⟩ : BufTy).Contents (Elt Ideal))
    (x1 : (⟨S2x1000000, .i32⟩ : BufTy).Contents (Elt Ideal))
    (x2 : (⟨S100000x128, .f32⟩ : BufTy).Contents (Elt Ideal)) (e : Fin 1000000) (l : Fin 256) :
    val_main_v29 (F := Ideal) x0 x1 x2 (ix2 e l)
      = join (fun k => x0 (ix2 (rowDst x1 e) k)) (fun k => x2 (ix2 (rowQid x1 e) k)) l := by
  unfold val_main_v29
  rw [cat_at]
  simp only [v21_at, v28_at]

/-- The hidden vector of edge `e`: the join of the second endpoint's row and the query row times the transpose of the
    first weight matrix. -/
theorem v31_at (x0 : (⟨S100000x128, .f32⟩ : BufTy).Contents (Elt Ideal))
    (x1 : (⟨S2x1000000, .i32⟩ : BufTy).Contents (Elt Ideal))
    (x2 : (⟨S100000x128, .f32⟩ : BufTy).Contents (Elt Ideal))
    (x3 : (⟨S128x256, .f32⟩ : BufTy).Contents (Elt Ideal)) (e : Fin 1000000) (j : Fin 128) :
    val_main_v31 (F := Ideal) x0 x1 x2 x3 (ix2 e j)
      = Cert.EdgeScore.hidden (fun k => x0 (ix2 (rowDst x1 e) k)) (fun k => x2 (ix2 (rowQid x1 e) k)) (fun j l => x3 (ix2 j l)) j := by
  rw [val_main_v31_apply]
  unfold Cert.EdgeScore.hidden
  refine Finset.sum_congr rfl fun l _ => ?_
  have el : lidx_main_v31 (ix2 e j) l = ix2 e l := funext fun a => Fin.ext (by
    match a with
    | ⟨0, _⟩ => rfl
    | ⟨1, _⟩ => rfl)
  have er : idx_main_v30 (ridx_main_v31 (ix2 e j) l) = ix2 j l := funext fun a => Fin.ext (by
    match a with
    | ⟨0, _⟩ => rfl
    | ⟨1, _⟩ => rfl)
  rw [el, v29_at, val_main_v30_apply, er]

/-- The join of the first endpoint's row and the hidden vector. -/
theorem v32_at (x0 : (⟨S100000x128, .f32⟩ : BufTy).Contents (Elt Ideal))
    (x1 : (⟨S2x1000000, .i32⟩ : BufTy).Contents (Elt Ideal))
    (x2 : (⟨S100000x128, .f32⟩ : BufTy).Contents (Elt Ideal))
    (x3 : (⟨S128x256, .f32⟩ : BufTy).Contents (Elt Ideal)) (e : Fin 1000000) (l : Fin 256) :
    val_main_v32 (F := Ideal) x0 x1 x2 x3 (ix2 e l)
      = join (fun k => x0 (ix2 (rowSrc x1 e) k))
          (Cert.EdgeScore.hidden (fun k => x0 (ix2 (rowDst x1 e) k)) (fun k => x2 (ix2 (rowQid x1 e) k)) (fun j l => x3 (ix2 j l))) l := by
  unfold val_main_v32
  rw [cat_at]
  simp only [v12_at, v31_at]

/-! ## The score -/

/-- The score of edge `e` as the last product and the bias leave it, a column of one entry per edge. -/
theorem v37_at (x0 : (⟨S100000x128, .f32⟩ : BufTy).Contents (Elt Ideal))
    (x1 : (⟨S2x1000000, .i32⟩ : BufTy).Contents (Elt Ideal))
    (x2 : (⟨S100000x128, .f32⟩ : BufTy).Contents (Elt Ideal))
    (x3 : (⟨S128x256, .f32⟩ : BufTy).Contents (Elt Ideal))
    (x4 : (⟨S1x256, .f32⟩ : BufTy).Contents (Elt Ideal))
    (x5 : (⟨S1, .f32⟩ : BufTy).Contents (Elt Ideal)) (e : Fin 1000000) :
    val_main_v37 (F := Ideal) x0 x1 x2 x3 x4 x5 (ix2 e (0 : Fin 1))
      = referenceForm (fun k => x0 (ix2 (rowSrc x1 e) k)) (fun k => x0 (ix2 (rowDst x1 e) k))
          (fun k => x2 (ix2 (rowQid x1 e) k)) (fun j l => x3 (ix2 j l)) (fun l => x4 (ix2 0 l)) (x5 (ix1 0)) := by
  rw [val_main_v37_apply, Ideal.addf_def, val_main_v34_apply, val_main_v36_apply, val_main_v35_apply]
  unfold referenceForm
  have eb : idx_main_v35 (idx_main_v36 (ix2 e (0 : Fin 1))) = ix1 0 := funext fun a => Fin.ext (by
    match a with
    | ⟨0, _⟩ => rfl)
  rw [eb]
  refine congrArg (· + x5 (ix1 0)) ?_
  refine Finset.sum_congr rfl fun l _ => ?_
  have el : lidx_main_v34 (ix2 e (0 : Fin 1)) l = ix2 e l := funext fun a => Fin.ext (by
    match a with
    | ⟨0, _⟩ => rfl
    | ⟨1, _⟩ => rfl)
  have er : idx_main_v33 (ridx_main_v34 (ix2 e (0 : Fin 1)) l) = ix2 0 l := funext fun a => Fin.ext (by
    match a with
    | ⟨0, _⟩ => rfl
    | ⟨1, _⟩ => rfl)
  rw [el, v32_at, val_main_v33_apply, er]

/-- The reference program's result is the specification's score in the reference's form, edge by edge. -/
theorem ref_value (x0 : (⟨S100000x128, .f32⟩ : BufTy).Contents (Elt Ideal))
    (x1 : (⟨S2x1000000, .i32⟩ : BufTy).Contents (Elt Ideal))
    (x2 : (⟨S100000x128, .f32⟩ : BufTy).Contents (Elt Ideal))
    (x3 : (⟨S128x256, .f32⟩ : BufTy).Contents (Elt Ideal))
    (x4 : (⟨S1x256, .f32⟩ : BufTy).Contents (Elt Ideal))
    (x5 : (⟨S1, .f32⟩ : BufTy).Contents (Elt Ideal)) :
    val_main_v38 (F := Ideal) x0 x1 x2 x3 x4 x5 = Cert.EdgeScore.referenceScore x0 x1 x2 x3 x4 x5 := by
  funext (i : S1000000.Idx)
  obtain ⟨e, rfl⟩ : ∃ e : Fin 1000000, i = ix1 e := ⟨i 0, eq_ix1 i⟩
  rw [val_main_v38_apply]
  have ei : idx_main_v38 (ix1 e) = ix2 e (0 : Fin 1) := funext fun a => Fin.ext (by
    match a with
    | ⟨0, _⟩ => exact Nat.div_one _
    | ⟨1, _⟩ => rfl)
  rw [ei, v37_at]
  rfl

end Cert.ReferenceIdeal.RefValue

end
-- ==== Proof.KernelArrays.lean ====
/- The three output arrays of the kernel's region at the ideal values: each row of an output array is the sum over
   the 128 columns of a table row times a weight vector (the third with a bias added). -/
import proofs.«424262_j19078244729115_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Arrays

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ)

/-! ## The body's three stored values at a row -/

/-- A lane sum of a [5000,128] block over its columns, at row r, is the sum over the 128 columns. -/
theorem laneSum_apply (src : FVec Ideal S5000x128 .f32) (h : S5000x128.Reduces [1] S5000) (hφ : FKind.Formats .f32)
    (hacc : (0x00000000#32 : BitVec 32) = 0x00000000#32) (r : Fin 5000) :
    multiReduction (F := Ideal) .add [1] S5000 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- A [5000] column stored as a [5000,1] block reads, at (r, q), the column at r. -/
theorem column_apply {α : Type} (x : S5000.Idx → α) (h : S5000.ShapeCasts S5000x1) (r : Fin 5000) (q : Fin 1) :
    shapeCast S5000x1 x h (ix2 r q) = x (ix1 r) :=
  shapeCast_apply x h _ _ (by
    have hq : q.val = 0 := by omega
    rw [Shape.rowMajor_val_two, Shape.rowMajor_val_one]
    show r.val = r.val * 1 + q.val
    rw [hq, Nat.mul_one, Nat.add_zero])

/-- A [128] weight vector laid as one row and repeated down 5000 rows reads, at (r, k), the weight at k. -/
theorem weightRows_apply {α : Type} (w : S128.Idx → α) (r : Fin 5000) (k : Fin 128) :
    broadcastTo S5000x128 (shapeCast S1x128 (shapeCast S128 w shapeCasts_S128_S128) shapeCasts_S128_S1x128)
      broadcasts_S1x128_S5000x128 (ix2 r k) = w (ix1 k) := by
  rw [shapeCast_self]
  exact (broadcastTo_1b_ab_apply _ broadcasts_S1x128_S5000x128 r k).trans
    (shapeCast_a_1a_apply w shapeCasts_S128_S1x128 (0 : Fin 1) k)

/-- The first stored value at row r: the sum over k of the table block's row r times the first weight vector. -/
theorem pay1_apply (x : Vec Ideal S5000x128 .f32) (w : Vec Ideal S128 .f32) (r : Fin 5000) (q : Fin 1) :
    k0_pay1 (F := Ideal) x w (ix2 r q) = ∑ k : Fin 128, (x (ix2 r k) : EReal) * (w (ix1 k) : EReal) := by
  unfold k0_pay1
  refine (column_apply _ shapeCasts_S5000_S5000x1 r q).trans ?_
  refine (laneSum_apply _ reduces_S5000x128_S5000 (.inl rfl) rfl r).trans ?_
  refine Finset.sum_congr rfl fun k _ => ?_
  exact congrArg (fun z : EReal => (x (ix2 r k) : EReal) * z) (weightRows_apply w r k)

/-- The second stored value at row r: the same table block against the second weight vector. -/
theorem pay2_apply (x : Vec Ideal S5000x128 .f32) (w : Vec Ideal S128 .f32) (r : Fin 5000) (q : Fin 1) :
    k0_pay2 (F := Ideal) x w (ix2 r q) = ∑ k : Fin 128, (x (ix2 r k) : EReal) * (w (ix1 k) : EReal) := by
  unfold k0_pay2
  refine (column_apply _ shapeCasts_S5000_S5000x1 r q).trans ?_
  refine (laneSum_apply _ reduces_S5000x128_S5000 (.inl rfl) rfl r).trans ?_
  refine Finset.sum_congr rfl fun k _ => ?_
  exact congrArg (fun z : EReal => (x (ix2 r k) : EReal) * z) (weightRows_apply w r k)

/-- The third stored value at row r: the second table block's row r against the third weight vector, plus the bias. -/
theorem pay3_apply (x : Vec Ideal S5000x128 .f32) (w : Vec Ideal S128 .f32) (b : Vec Ideal S1 .f32) (r : Fin 5000) (q : Fin 1) :
    k0_pay3 (F := Ideal) x w b (ix2 r q)
      = (∑ k : Fin 128, (x (ix2 r k) : EReal) * (w (ix1 k) : EReal)) + (b (ix1 (0 : Fin 1)) : EReal) := by
  unfold k0_pay3
  refine congrArg₂ (fun u v : EReal => u + v) ?_ ?_
  · refine (column_apply _ shapeCasts_S5000_S5000x1 r q).trans ?_
    refine (laneSum_apply _ reduces_S5000x128_S5000 (.inl rfl) rfl r).trans ?_
    refine Finset.sum_congr rfl fun k _ => ?_
    exact congrArg (fun z : EReal => (x (ix2 r k) : EReal) * z) (weightRows_apply w r k)
  · show b _ = b _
    refine congrArg b ?_
    funext a
    match a with
    | ⟨0, _⟩ => rfl

/-! ## The arrays and the blocks, by their literal types -/

/-- The two tables, the three weight vectors and the bias as the region finds them. -/
abbrev zArr (c : Dev nD) : S100000x128.Idx → EReal := V m c main_arg0
abbrev z0Arr (c : Dev nD) : S100000x128.Idx → EReal := V m c main_arg2
abbrev w2Arr (c : Dev nD) : S128.Idx → EReal := V m c main_v12
abbrev w3Arr (c : Dev nD) : S128.Idx → EReal := V m c main_v16
abbrev w4Arr (c : Dev nD) : S128.Idx → EReal := V m c main_v20
abbrev biasArr (c : Dev nD) : S1.Idx → EReal := V m c main_arg5

/-- The six input windows' blocks at point t. -/
abbrev zBlk (c : Dev nD) (t : Fin cfg0.N) : Vec Ideal S5000x128 .f32 := iblk m c 0 t
abbrev z0Blk (c : Dev nD) (t : Fin cfg0.N) : Vec Ideal S5000x128 .f32 := iblk m c 1 t
abbrev w2Blk (c : Dev nD) (t : Fin cfg0.N) : Vec Ideal S128 .f32 := iblk m c 2 t
abbrev w3Blk (c : Dev nD) (t : Fin cfg0.N) : Vec Ideal S128 .f32 := iblk m c 3 t
abbrev w4Blk (c : Dev nD) (t : Fin cfg0.N) : Vec Ideal S128 .f32 := iblk m c 4 t
abbrev biasBlk (c : Dev nD) (t : Fin cfg0.N) : Vec Ideal S1 .f32 := iblk m c 5 t

theorem hz2 : (![0, 0] : Fin 2 → Nat) = fun _ => 0 := funext fun a => by fin_cases a <;> rfl
theorem hz1 : (![0] : Fin 1 → Nat) = fun _ => 0 := funext fun a => by fin_cases a <;> rfl

/-- The block indices over the grid: the two tables and the three outputs are at row block t, the weight vectors and
    the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0 ∧ win0_3.index t (0 : Fin 1) = 0
    ∧ win0_4.index t (0 : Fin 1) = 0 ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The first table's block at point t is rows 5000 t … 5000 t + 4999 of the table. -/
theorem zBlk_apply (c : Dev nD) (t : Fin cfg0.N) (r : Fin 5000) (k : Fin 128) (i : Fin 100000)
    (hi : i.val = t.val * 5000 + r.val) : zBlk m c t (ix2 r k) = zArr m c (ix2 i k) := by
  obtain ⟨e0, e1, -⟩ := idx_facts t
  show V m c main_arg0 (((cfg0.win 0).blk t).view.emb (ix2 r k)) = V m c main_arg0 (ix2 i k)
  refine congrArg (V m c main_arg0) (funext fun a => Fin.ext ?_)
  match a with
  | ⟨0, _⟩ => show win0_0.index t (0 : Fin 2) * 5000 + 1 * r.val = i.val; omega
  | ⟨1, _⟩ => show win0_0.index t (1 : Fin 2) * 128 + 1 * k.val = k.val; omega

/-- The first weight vector's block at every point is the whole vector. -/
theorem w2Blk_apply (c : Dev nD) (t : Fin cfg0.N) (k : Fin 128) : w2Blk m c t (ix1 k) = w2Arr m c (ix1 k) := by
  obtain ⟨-, -, -, -, e, -⟩ := idx_facts t
  show V m c main_v12 (((cfg0.win 2).blk t).view.emb (ix1 k)) = V m c main_v12 (ix1 k)
  refine congrArg (V m c main_v12) (funext fun a => Fin.ext ?_)
  match a with
  | ⟨0, _⟩ => show win0_2.index t (0 : Fin 1) * 128 + 1 * k.val = k.val; omega

/-! ## Output window 6 -/

/-- What the first output array ends holding: at row i the sum over k of the table's row i times the first weight vector. -/
abbrev G6 (c : Dev nD) : S100000x1.Idx → EReal :=
  fun i => ∑ k : Fin 128, zArr m c (ix2 (i 0) k) * w2Arr m c (ix1 k)

/-- Row r of what point t leaves in window 6's buffer is row 5000 t + r of G6. -/
theorem row6 (c : Dev nD) (t : Fin cfg0.N) (r : Fin 5000) (q : Fin 1) (i : S100000x1.Idx)
    (hi : (i 0).val = t.val * 5000 + r.val) :
    k0_pay1 (F := Ideal) (zBlk m c t) (w2Blk m c t) (ix2 r q) = G6 m c i := by
  refine (pay1_apply (zBlk m c t) (w2Blk m c t) r q).trans ?_
  refine Finset.sum_congr rfl fun k _ => ?_
  exact congrArg₂ (fun u v : EReal => u * v) (zBlk_apply m c t r k (i 0) hi) (w2Blk_apply m c t k)

/-- What point t writes back through window 6 is block t of G6. -/
theorem flushed6_eq (c : Dev nD) (t : Fin cfg0.N) :
    (dats (F := Ideal) m 0 c).flushed 6 t = ((cfg0.win 6).blk t).view.read (Elt Ideal) (G6 m c) := by
  show (cfg0.win 6).cut (grid0.coords t) ((dats (F := Ideal) m 0 c).after 6 t) = _
  rw [after0_6]
  unfold out0_6
  rw [View.canon_unit_zero hz2]
  simp only [View.ld_unit_zero (S := S5000x128) hz2, View.ld_unit_zero (S := S128) hz1]
  obtain ⟨-, -, -, -, -, -, -, -, e0, e1, -⟩ := idx_facts t
  refine funext fun (j : S5000x1.Idx) => ?_
  obtain ⟨r, q, rfl⟩ : ∃ (r : Fin 5000) (q : Fin 1), j = ix2 r q := ⟨j 0, j 1, eq_ix2 j⟩
  show k0_pay1 (F := Ideal) (zBlk m c t) (w2Blk m c t) (ix2 r q) = G6 m c (((cfg0.win 6).blk t).view.emb (ix2 r q))
  refine row6 m c t r q _ ?_
  show win0_6.index t (0 : Fin 2) * 5000 + 1 * r.val = t.val * 5000 + r.val
  omega

/-- An index of the first output array is in point t's block iff each coordinate is in the block's range. -/
theorem mem_blk6 (t : Fin cfg0.N) (i : S100000x1.Idx) :
    i ∈ ((cfg0.win 6).blk t).view.set ↔ ∀ a : Fin 2, win0_6.index t a * S5000x1.size a ≤ (i a).val ∧ (i a).val < win0_6.index t a * S5000x1.size a + S5000x1.size a := by
  show i ∈ ((View.whole main_v21_0).slice (win0_6.rect t)).set ↔ _
  rw [View.set_slice_whole, Rect.mem_set_unit]
  exact Iff.rfl

/-- Every row of the first output array is in the block of the point its row block names. -/
theorem cover6 (i : S100000x1.Idx) :
    ∃ t : Fin cfg0.N, (cfg0.win 6).flush t = true ∧ i ∈ ((cfg0.win 6).blk t).view.set := by
  have hi0 : (i 0).val < 100000 := idx2_lt0 i
  have hi1 : (i 1).val < 1 := idx2_lt1 i
  have hN : grid0.N = 20 := N_0
  have ht : (i 0).val / 5000 < cfg0.N := by show (i 0).val / 5000 < grid0.N; omega
  obtain ⟨-, -, -, -, -, -, -, -, e0, e1, -⟩ := idx_facts ⟨(i 0).val / 5000, ht⟩
  refine ⟨⟨(i 0).val / 5000, ht⟩, flush0_6 _, ?_⟩
  rw [mem_blk6]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 1 ≤ (i 1).val ∧ (i 1).val < win0_6.index ⟨(i 0).val / 5000, ht⟩ (1 : Fin 2) * 1 + 1
    rw [e1]; omega

/-- The first output array after the region. -/
theorem array6 (c : Dev nD) : (dats (F := Ideal) m 0 c).arrAt 6 cfg0.N
    = fun i : S100000x1.Idx => ∑ k : Fin 128, zArr m c (ix2 (i 0) k) * w2Arr m c (ix1 k) :=
  (dats (F := Ideal) m 0 c).arrAt_eq_of_cover 6 (G6 m c) (fun t _ => flushed6_eq m c t) cover6

/-! ## Output window 7 -/

/-- The second weight vector's block at every point is the whole vector. -/
theorem w3Blk_apply (c : Dev nD) (t : Fin cfg0.N) (k : Fin 128) : w3Blk m c t (ix1 k) = w3Arr m c (ix1 k) := by
  obtain ⟨-, -, -, -, -, e, -⟩ := idx_facts t
  show V m c main_v16 (((cfg0.win 3).blk t).view.emb (ix1 k)) = V m c main_v16 (ix1 k)
  refine congrArg (V m c main_v16) (funext fun a => Fin.ext ?_)
  match a with
  | ⟨0, _⟩ => show win0_3.index t (0 : Fin 1) * 128 + 1 * k.val = k.val; omega

/-- What the second output array ends holding: at row i the sum over k of the table's row i times the second weight vector. -/
abbrev G7 (c : Dev nD) : S100000x1.Idx → EReal :=
  fun i => ∑ k : Fin 128, zArr m c (ix2 (i 0) k) * w3Arr m c (ix1 k)

/-- Row r of what point t leaves in window 7's buffer is row 5000 t + r of G7. -/
theorem row7 (c : Dev nD) (t : Fin cfg0.N) (r : Fin 5000) (q : Fin 1) (i : S100000x1.Idx)
    (hi : (i 0).val = t.val * 5000 + r.val) :
    k0_pay2 (F := Ideal) (zBlk m c t) (w3Blk m c t) (ix2 r q) = G7 m c i := by
  refine (pay2_apply (zBlk m c t) (w3Blk m c t) r q).trans ?_
  refine Finset.sum_congr rfl fun k _ => ?_
  exact congrArg₂ (fun u v : EReal => u * v) (zBlk_apply m c t r k (i 0) hi) (w3Blk_apply m c t k)

/-- What point t writes back through window 7 is block t of G7. -/
theorem flushed7_eq (c : Dev nD) (t : Fin cfg0.N) :
    (dats (F := Ideal) m 0 c).flushed 7 t = ((cfg0.win 7).blk t).view.read (Elt Ideal) (G7 m c) := by
  show (cfg0.win 7).cut (grid0.coords t) ((dats (F := Ideal) m 0 c).after 7 t) = _
  rw [after0_7]
  unfold out0_7
  rw [View.canon_unit_zero hz2]
  simp only [View.ld_unit_zero (S := S5000x128) hz2, View.ld_unit_zero (S := S128) hz1]
  obtain ⟨-, -, -, -, -, -, -, -, -, -, e0, e1, -⟩ := idx_facts t
  refine funext fun (j : S5000x1.Idx) => ?_
  obtain ⟨r, q, rfl⟩ : ∃ (r : Fin 5000) (q : Fin 1), j = ix2 r q := ⟨j 0, j 1, eq_ix2 j⟩
  show k0_pay2 (F := Ideal) (zBlk m c t) (w3Blk m c t) (ix2 r q) = G7 m c (((cfg0.win 7).blk t).view.emb (ix2 r q))
  refine row7 m c t r q _ ?_
  show win0_7.index t (0 : Fin 2) * 5000 + 1 * r.val = t.val * 5000 + r.val
  omega

/-- An index of the second output array is in point t's block iff each coordinate is in the block's range. -/
theorem mem_blk7 (t : Fin cfg0.N) (i : S100000x1.Idx) :
    i ∈ ((cfg0.win 7).blk t).view.set ↔ ∀ a : Fin 2, win0_7.index t a * S5000x1.size a ≤ (i a).val ∧ (i a).val < win0_7.index t a * S5000x1.size a + S5000x1.size a := by
  show i ∈ ((View.whole main_v21_1).slice (win0_7.rect t)).set ↔ _
  rw [View.set_slice_whole, Rect.mem_set_unit]
  exact Iff.rfl

/-- Every row of the second output array is in the block of the point its row block names. -/
theorem cover7 (i : S100000x1.Idx) :
    ∃ t : Fin cfg0.N, (cfg0.win 7).flush t = true ∧ i ∈ ((cfg0.win 7).blk t).view.set := by
  have hi0 : (i 0).val < 100000 := idx2_lt0 i
  have hi1 : (i 1).val < 1 := idx2_lt1 i
  have hN : grid0.N = 20 := N_0
  have ht : (i 0).val / 5000 < cfg0.N := by show (i 0).val / 5000 < grid0.N; omega
  obtain ⟨-, -, -, -, -, -, -, -, -, -, e0, e1, -⟩ := idx_facts ⟨(i 0).val / 5000, ht⟩
  refine ⟨⟨(i 0).val / 5000, ht⟩, flush0_7 _, ?_⟩
  rw [mem_blk7]
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, ht⟩ (1 : Fin 2) * 1 ≤ (i 1).val ∧ (i 1).val < win0_7.index ⟨(i 0).val / 5000, ht⟩ (1 : Fin 2) * 1 + 1
    rw [e1]; omega

/-- The second output array after the region. -/
theorem array7 (c : Dev nD) : (dats (F := Ideal) m 0 c).arrAt 7 cfg0.N
    = fun i : S100000x1.Idx => ∑ k : Fin 128, zArr m c (ix2 (i 0) k) * w3Arr m c (ix1 k) :=
  (dats (F := Ideal) m 0 c).arrAt_eq_of_cover 7 (G7 m c) (fun t _ => flushed7_eq m c t) cover7

/-! ## Output window 8 -/

/-- The second table's block at point t is rows 5000 t … 5000 t + 4999 of that table. -/
theorem z0Blk_apply (c : Dev nD) (t : Fin cfg0.N) (r : Fin 5000) (k : Fin 128) (i : Fin 100000)
    (hi : i.val = t.val * 5000 + r.val) : z0Blk m c t (ix2 r k) = z0Arr m c (ix2 i k) := by
  obtain ⟨-, -, e0, e1, -⟩ := idx_facts t
  show V m c main_arg2 (((cfg0.win 1).blk t).view.emb (ix2 r k)) = V m c main_arg2 (ix2 i k)
  refine congrArg (V m c main_arg2) (funext fun a => Fin.ext ?_)
  match a with
  | ⟨0, _⟩ => show win0_1.index t (0 : Fin 2) * 5000 + 1 * r.val = i.val; omega
  | ⟨1, _⟩ => show win0_1.index t (1 : Fin 2) * 128 + 1 * k.val = k.val; omega

/-- The third weight vector's block at every point is the whole vector. -/
theorem w4Blk_apply (c : Dev nD) (t : Fin cfg0.N) (k : Fin 128) : w4Blk m c t (ix1 k) = w4Arr m c (ix1 k) := by
  obtain ⟨-, -, -, -, -, -, e, -⟩ := idx_facts t
  show V m c main_v20 (((cfg0.win 4).blk t).view.emb (ix1 k)) = V m c main_v20 (ix1 k)
  refine congrArg (V m c main_v20) (funext fun a => Fin.ext ?_)
  match a with
  | ⟨0, _⟩ => show win0_4.index t (0 : Fin 1) * 128 + 1 * k.val = k.val; omega

/-- The bias's block at every point is the whole one-entry array. -/
theorem biasBlk_apply (c : Dev nD) (t : Fin cfg0.N) :
    biasBlk m c t (ix1 (0 : Fin 1)) = biasArr m c (ix1 (0 : Fin 1)) := by
  obtain ⟨-, -, -, -, -, -, -, e, -⟩ := idx_facts t
  show V m c main_arg5 (((cfg0.win 5).blk t).view.emb (ix1 (0 : Fin 1))) = V m c main_arg5 (ix1 (0 : Fin 1))
  refine congrArg (V m c main_arg5) (funext fun a => Fin.ext ?_)
  match a with
  | ⟨0, _⟩ => show win0_5.index t (0 : Fin 1) * 1 + 1 * (0 : Fin 1).val = (0 : Fin 1).val; rw [e]; rfl

/-- What the third output array ends holding: at row i the sum over k of the second table's row i times the third
    weight vector, plus the bias. -/
abbrev G8 (c : Dev nD) : S100000x1.Idx → EReal :=
  fun i => (∑ k : Fin 128, z0Arr m c (ix2 (i 0) k) * w4Arr m c (ix1 k)) + biasArr m c (ix1 (0 : Fin 1))

/-- Row r of what point t leaves in window 8's buffer is row 5000 t + r of G8. -/
theorem row8 (c : Dev nD) (t : Fin cfg0.N) (r : Fin 5000) (q : Fin 1) (i : S100000x1.Idx)
    (hi : (i 0).val = t.val * 5000 + r.val) :
    k0_pay3 (F := Ideal) (z0Blk m c t) (w4Blk m c t) (biasBlk m c t) (ix2 r q) = G8 m c i := by
  refine (pay3_apply (z0Blk m c t) (w4Blk m c t) (biasBlk m c t) r q).trans ?_
  refine congrArg₂ (fun u v : EReal => u + v) (Finset.sum_congr rfl fun k _ => ?_) (biasBlk_apply m c t)
  exact congrArg₂ (fun u v : EReal => u * v) (z0Blk_apply m c t r k (i 0) hi) (w4Blk_apply m c t k)

/-- What point t writes back through window 8 is block t of G8. -/
theorem flushed8_eq (c : Dev nD) (t : Fin cfg0.N) :
    (dats (F := Ideal) m 0 c).flushed 8 t = ((cfg0.win 8).blk t).view.read (Elt Ideal) (G8 m c) := by
  show (cfg0.win 8).cut (grid0.coords t) ((dats (F := Ideal) m 0 c).after 8 t) = _
  rw [after0_8]
  unfold out0_8
  rw [View.canon_unit_zero hz2]
  simp only [View.ld_unit_zero (S := S5000x128) hz2, View.ld_unit_zero (S := S128) hz1, View.ld_unit_zero (S := S1) hz1]
  obtain ⟨-, -, -, -, -, -, -, -, -, -, -, -, e0, e1⟩ := idx_facts t
  refine funext fun (j : S5000x1.Idx) => ?_
  obtain ⟨r, q, rfl⟩ : ∃ (r : Fin 5000) (q : Fin 1), j = ix2 r q := ⟨j 0, j 1, eq_ix2 j⟩
  show k0_pay3 (F := Ideal) (z0Blk m c t) (w4Blk m c t) (biasBlk m c t) (ix2 r q) = G8 m c (((cfg0.win 8).blk t).view.emb (ix2 r q))
  refine row8 m c t r q _ ?_
  show win0_8.index t (0 : Fin 2) * 5000 + 1 * r.val = t.val * 5000 + r.val
  omega

/-- An index of the third output array is in point t's block iff each coordinate is in the block's range. -/
theorem mem_blk8 (t : Fin cfg0.N) (i : S100000x1.Idx) :
    i ∈ ((cfg0.win 8).blk t).view.set ↔ ∀ a : Fin 2, win0_8.index t a * S5000x1.size a ≤ (i a).val ∧ (i a).val < win0_8.index t a * S5000x1.size a + S5000x1.size a := by
  show i ∈ ((View.whole main_v21_2).slice (win0_8.rect t)).set ↔ _
  rw [View.set_slice_whole, Rect.mem_set_unit]
  exact Iff.rfl

/-- Every row of the third output array is in the block of the point its row block names. -/
theorem cover8 (i : S100000x1.Idx) :
    ∃ t : Fin cfg0.N, (cfg0.win 8).flush t = true ∧ i ∈ ((cfg0.win 8).blk t).view.set := by
  have hi0 : (i 0).val < 100000 := idx2_lt0 i
  have hi1 : (i 1).val < 1 := idx2_lt1 i
  have hN : grid0.N = 20 := N_0
  have ht : (i 0).val / 5000 < cfg0.N := by show (i 0).val / 5000 < grid0.N; omega
  obtain ⟨-, -, -, -, -, -, -, -, -, -, -, -, e0, e1⟩ := idx_facts ⟨(i 0).val / 5000, ht⟩
  refine ⟨⟨(i 0).val / 5000, ht⟩, flush0_8 _, ?_⟩
  rw [mem_blk8]
  intro a
  match a with
  | ⟨0, _⟩ =>
    show win0_8.index ⟨(i 0).val / 5000, ht⟩ (0 : Fin 2) * 5000 ≤ (i 0).val ∧ (i 0).val < win0_8.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_8.index ⟨(i 0).val / 5000, ht⟩ (1 : Fin 2) * 1 ≤ (i 1).val ∧ (i 1).val < win0_8.index ⟨(i 0).val / 5000, ht⟩ (1 : Fin 2) * 1 + 1
    rw [e1]; omega

/-- The third output array after the region. -/
theorem array8 (c : Dev nD) : (dats (F := Ideal) m 0 c).arrAt 8 cfg0.N
    = fun i : S100000x1.Idx => (∑ k : Fin 128, z0Arr m c (ix2 (i 0) k) * w4Arr m c (ix1 k)) + biasArr m c (ix1 (0 : Fin 1)) :=
  (dats (F := Ideal) m 0 c).arrAt_eq_of_cover 8 (G8 m c) (fun t _ => flushed8_eq m c t) cover8

end Cert.KernelIdeal.Arrays

end
-- ==== Proof.KernelTail.lean ====
/-
  The host operations after the kernel's region, read at an edge.

  After the region the three output arrays `a, b, c : [100000, 1]` are reshaped to `[100000]`, each of the three id
  vectors (the two endpoint ids and the query id, computed before the region) is wrapped where negative and laid as an
  index column `[1000000, 1]`, each array is gathered at its column, and the three gathered vectors are added:
  `(a[src] + b[dst]) + c[qid]`. At edge `e` a gather reads its table at the row the wrapped id names, clamped into the
  table; so the result at `e` is `(a(row src e) + b(row dst e)) + c(row qid e)`.
-/
import proofs.«424262_j19078244729115_3_alg».proof.Proof.Gen.KernelIdeal.Frame
import proofs.«424262_j19078244729115_3_alg».proof.Proof.KernelArrays
import proofs.«424262_j19078244729115_3_alg».proof.Proof.LibGather
import proofs.«424262_j19078244729115_3_alg».proof.Proof.Spec
import Idealize.ShloMosaic.Lib.Pipeline.Value
import Idealize.ShloMosaic.Lib.ValueIdx
import Idealize.ShloMosaic.Lib.StableHlo.Run
import Idealize.ShloMosaic.PureOps.Ideal

set_option maxRecDepth 16384

noncomputable section

namespace Cert.KernelIdeal.Tail

open Cert.KernelIdeal Cert.KernelIdeal.Gen
open Idealize.ShloMosaic Idealize.ShloMosaic.TcCoe Idealize.ShloMosaic.ValueIdx Idealize.ShloMosaic.StableHlo
open Idealize.SL.Sem
open Cert.EdgeScore (rowOf wrap)

/-! ## The pieces, over any arrays -/

/-- An id vector wrapped where negative (`+100000`) and laid as a column `[1000000, 1]`. -/
abbrev idCol (v : S1000000.Idx → BitVec 32) : S1000000x1.Idx → BitVec 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)

/-- The column at `(e, 0)` is the wrapped id of edge `e`. -/
theorem idCol_apply (v : S1000000.Idx → BitVec 32) (e : Fin 1000000) :
    idCol v (ix2 e (0 : Fin 1)) = wrap (v (ix1 e)) := by
  refine (broadcastInDim_apply ![0] bcast_S1000000_S1000000x1_0 _ (ix2 e (0 : Fin 1)) (ix1 e) (fun a => match a with
    | ⟨0, _⟩ => by show e.val = if (1000000 : Nat) = 1 then 0 else e.val; rw [if_neg (by decide)])).trans ?_
  rfl

/-- A `[100000, 1]` array reshaped to `[100000]` reads, at `r`, the array at `(r, 0)`. -/
theorem unColumn_apply (A : S100000x1.Idx → EReal) (r : Fin 100000) :
    shapeCast S100000 A shapeCasts_S100000x1_S100000 (ix1 r) = A (ix2 r (0 : Fin 1)) :=
  shapeCast_apply A shapeCasts_S100000x1_S100000 (ix1 r) (ix2 r (0 : Fin 1))
    (by rewrite [Shape.rowMajor_val_two, Shape.rowMajor_val_one]; show r.val * 1 + 0 = r.val; omega)

/-- The printed gather's dimension numbers are those of a gather of scalars by an index column. -/
theorem gather_dims_eq : gather_S100000_S1000000x1_S1000000_n_0_n_n_0_1_1
    = RowGather.scalarDims 100000 1000000 gather_S100000_S1000000x1_S1000000_n_0_n_n_0_1_1_wf := rfl

/-- One gathered vector at edge `e`: the array at the row the wrapped id names. -/
theorem gathered_apply (A : S100000x1.Idx → EReal) (v : S1000000.Idx → BitVec 32) (e : Fin 1000000) :
    Host.gather gather_S100000_S1000000x1_S1000000_n_0_n_n_0_1_1
        (fun i => shapeCast S100000 A shapeCasts_S100000x1_S100000 i) (idCol v) (ix1 e)
      = A (ix2 (rowOf (wrap (v (ix1 e)))) (0 : Fin 1)) := by
  rw [gather_dims_eq]
  refine (RowGather.gather_scalar_apply (by decide) _ _ _ (ix1 e)).trans ?_
  show shapeCast S100000 A shapeCasts_S100000x1_S100000
    (ix1 (RowGather.clampRow 100000 (by decide) (idCol v (ix2 e (0 : Fin 1))))) = _
  rw [idCol_apply, unColumn_apply]
  rfl

/-- The sum of the three gathered vectors at edge `e`. -/
theorem gatheredSum_apply (A B C : S100000x1.Idx → EReal) (s d q : S1000000.Idx → BitVec 32) (e : Fin 1000000) :
    addf (F := Ideal) (φ := .f32)
        (addf (F := Ideal) (φ := .f32)
          (Host.gather gather_S100000_S1000000x1_S1000000_n_0_n_n_0_1_1
            (fun i => shapeCast S100000 A shapeCasts_S100000x1_S100000 i) (idCol s))
          (Host.gather gather_S100000_S1000000x1_S1000000_n_0_n_n_0_1_1
            (fun i => shapeCast S100000 B shapeCasts_S100000x1_S100000 i) (idCol d)))
        (Host.gather gather_S100000_S1000000x1_S1000000_n_0_n_n_0_1_1
          (fun i => shapeCast S100000 C shapeCasts_S100000x1_S100000 i) (idCol q)) (ix1 e)
      = (A (ix2 (rowOf (wrap (s (ix1 e)))) (0 : Fin 1)) + B (ix2 (rowOf (wrap (d (ix1 e)))) (0 : Fin 1)))
          + C (ix2 (rowOf (wrap (q (ix1 e)))) (0 : Fin 1)) := by
  show FloatOps.addf (F := Ideal) (φ := .f32) (FloatOps.addf (F := Ideal) (φ := .f32) (Host.gather _ _ (idCol s) (ix1 e))
    (Host.gather _ _ (idCol d) (ix1 e))) (Host.gather _ _ (idCol q) (ix1 e)) = _
  rw [gathered_apply A s e, gathered_apply B d e, gathered_apply C q e]
  rfl

/-! ## This kernel's tail -/

variable (m : (ℓ : Loc nD τ sig) → Buf (Elt Ideal) ℓ)

/-- The three output arrays as the region leaves them, and the three id vectors as the region found them. -/
abbrev outA (c : Dev nD) : S100000x1.Idx → EReal := (dats (F := Ideal) m 0 c).arrAt 6 cfg0.N
abbrev outB (c : Dev nD) : S100000x1.Idx → EReal := (dats (F := Ideal) m 0 c).arrAt 7 cfg0.N
abbrev outC (c : Dev nD) : S100000x1.Idx → EReal := (dats (F := Ideal) m 0 c).arrAt 8 cfg0.N
abbrev srcIds (c : Dev nD) : S1000000.Idx → BitVec 32 := V m c main_v1
abbrev dstIds (c : Dev nD) : S1000000.Idx → BitVec 32 := V m c main_v3
abbrev qidIds (c : Dev nD) : S1000000.Idx → BitVec 32 := V m c main_v7

set_option maxHeartbeats 2000000 in
/-- The program's result at edge `e`: `(a(row src e) + b(row dst e)) + c(row qid e)`. -/
theorem result_apply (c : Dev nD) (e : Fin 1000000) :
    (Pipeline.afterTail₀ cfgs (dats (F := Ideal) m) 0 (V0 m) [hostOps1] c main_v47 : S1000000.Idx → EReal) (ix1 e)
      = (outA m c (ix2 (rowOf (wrap (srcIds m c (ix1 e)))) (0 : Fin 1))
          + outB m c (ix2 (rowOf (wrap (dstIds m c (ix1 e)))) (0 : Fin 1)))
        + outC m c (ix2 (rowOf (wrap (qidIds m c (ix1 e)))) (0 : Fin 1)) := by
  have hA : Pipeline.withArrays (cfgs 0).spec c (V0 m c) (fun w => (dats (F := Ideal) m 0 c).arrAt w (cfgs 0).N)
      (Proc.devRef .tc main_v21_0) = (dats (F := Ideal) m 0 c).arrAt 6 cfg0.N :=
    Pipeline.withArrays_arr spec0 launch0.win.arr_inj c _ _ 6
  have hB : Pipeline.withArrays (cfgs 0).spec c (V0 m c) (fun w => (dats (F := Ideal) m 0 c).arrAt w (cfgs 0).N)
      (Proc.devRef .tc main_v21_1) = (dats (F := Ideal) m 0 c).arrAt 7 cfg0.N :=
    Pipeline.withArrays_arr spec0 launch0.win.arr_inj c _ _ 7
  have hC : Pipeline.withArrays (cfgs 0).spec c (V0 m c) (fun w => (dats (F := Ideal) m 0 c).arrAt w (cfgs 0).N)
      (Proc.devRef .tc main_v21_2) = (dats (F := Ideal) m 0 c).arrAt 8 cfg0.N :=
    Pipeline.withArrays_arr spec0 launch0.win.arr_inj c _ _ 8
  have hs : Pipeline.withArrays (cfgs 0).spec c (V0 m c) (fun w => (dats (F := Ideal) m 0 c).arrAt w (cfgs 0).N)
      (Proc.devRef .tc main_v1) = V m c main_v1 :=
    Pipeline.withArrays_of_ne _ c (V0 m c) _ main_v1 (by exact (by decide : ∀ w, Pipeline.arrRef spec0 w ≠ main_v1))
  have hd : Pipeline.withArrays (cfgs 0).spec c (V0 m c) (fun w => (dats (F := Ideal) m 0 c).arrAt w (cfgs 0).N)
      (Proc.devRef .tc main_v3) = V m c main_v3 :=
    Pipeline.withArrays_of_ne _ c (V0 m c) _ main_v3 (by exact (by decide : ∀ w, Pipeline.arrRef spec0 w ≠ main_v3))
  have hq : Pipeline.withArrays (cfgs 0).spec c (V0 m c) (fun w => (dats (F := Ideal) m 0 c).arrAt w (cfgs 0).N)
      (Proc.devRef .tc main_v7) = V m c main_v7 :=
    Pipeline.withArrays_of_ne _ c (V0 m c) _ main_v7 (by exact (by decide : ∀ w, Pipeline.arrRef spec0 w ≠ main_v7))
  unfold Pipeline.afterTail₀
  simp only [hostOps1, List.flatten_cons, List.flatten_nil, List.append_nil]
  after_results_simp
  rw [hA, hB, hC, hs, hd, hq]
  exact gatheredSum_apply (outA m c) (outB m c) (outC m c) (srcIds m c) (dstIds m c) (qidIds m c) e

end Cert.KernelIdeal.Tail

end
-- ==== Proof.KernelPre.lean ====
/- What the host operations before the region leave for it and for the operations after it, read entry by entry as
   functions of the program's arguments: the two endpoint-id vectors and the query-id vector of the edges, and the
   three folded weight vectors. -/
import proofs.«424262_j19078244729115_3_alg».proof.Proof.Gen.KernelIdeal.Frame
import proofs.«424262_j19078244729115_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Pre

open Cert.KernelIdeal Cert.KernelIdeal.Gen
open Idealize.ShloMosaic Idealize.ShloMosaic.TcCoe Idealize.ShloMosaic.ValueIdx Idealize.ShloMosaic.StableHlo
open Idealize.SL.Sem
open scoped BigOperators

variable (m : (ℓ : Loc nD τ sig) → Buf (Elt Ideal) ℓ)

/-! ## The arrays by their literal types -/

/-- The edge list (two rows of ids), the first layer's weights and the second layer's weights, as launched. -/
abbrev eiArr (c : Dev nD) : S2x1000000.Idx → BitVec 32 := m ((c.tc : Thread nD τ).loc main_arg1)
abbrev wqArr (c : Dev nD) : S128x256.Idx → EReal := m ((c.tc : Thread nD τ).loc main_arg3)
abbrev woArr (c : Dev nD) : S1x256.Idx → EReal := m ((c.tc : Thread nD τ).loc main_arg4)

/-- The three id vectors and the three weight vectors as the region finds them. -/
abbrev srcVec (c : Dev nD) : S1000000.Idx → BitVec 32 := V m c main_v1
abbrev dstVec (c : Dev nD) : S1000000.Idx → BitVec 32 := V m c main_v3
abbrev qidVec (c : Dev nD) : S1000000.Idx → BitVec 32 := V m c main_v7
abbrev w2Vec (c : Dev nD) : S128.Idx → EReal := V m c main_v12
abbrev w3Vec (c : Dev nD) : S128.Idx → EReal := V m c main_v16
abbrev w4Vec (c : Dev nD) : S128.Idx → EReal := V m c main_v20

/-! ## The endpoint ids and the first weight vector -/

/-- The first endpoint ids: row 0 of the edge list, flattened. -/
theorem srcVec_eq (c : Dev nD) : srcVec m c
    = shapeCast S1000000 (extractStridedSlice S1x1000000 ![0, 0] (eiArr m c) slices_S2x1000000_S1x1000000_0_0)
        shapeCasts_S1x1000000_S1000000 := by
  show StableHlo.after hostOps0 (fun b => m (c, b)) (Proc.devRef .tc main_v1) = _
  after_results
  rfl

/-- The second endpoint ids: row 1 of the edge list, flattened. -/
theorem dstVec_eq (c : Dev nD) : dstVec m c
    = shapeCast S1000000 (extractStridedSlice S1x1000000 ![1, 0] (eiArr m c) slices_S2x1000000_S1x1000000_1_0)
        shapeCasts_S1x1000000_S1000000 := by
  show StableHlo.after hostOps0 (fun b => m (c, b)) (Proc.devRef .tc main_v3) = _
  after_results
  rfl

/-- The first weight vector: the lower half of the second layer's one row, flattened. -/
theorem w2Vec_eq (c : Dev nD) : w2Vec m c
    = shapeCast S128 (extractStridedSlice S1x128 ![0, 0] (woArr m c) slices_S1x256_S1x128_0_0) shapeCasts_S1x128_S128 := by
  show StableHlo.after hostOps0 (fun b => m (c, b)) (Proc.devRef .tc main_v12) = _
  after_results
  rfl

/-- One row of the edge list, flattened, reads at edge e the list at that row and column e. -/
theorem row_apply (X : S2x1000000.Idx → BitVec 32) (o : Nat) (h : S2x1000000.Slices ![o, 0] S1x1000000)
    (a : Fin 2) (ha : a.val = o) (e : Fin 1000000) :
    shapeCast S1000000 (extractStridedSlice S1x1000000 ![o, 0] X h) shapeCasts_S1x1000000_S1000000 (ix1 e) = X (ix2 a e) :=
  (shapeCast_1a_a_apply _ shapeCasts_S1x1000000_S1000000 e).trans
    (slice2_axis0_apply o X h (0 : Fin 1) e a (by rw [ha]; rfl))

theorem src_apply (c : Dev nD) (e : Fin 1000000) : srcVec m c (ix1 e) = eiArr m c (ix2 (0 : Fin 2) e) := by
  rw [srcVec_eq]
  exact row_apply (eiArr m c) 0 slices_S2x1000000_S1x1000000_0_0 (0 : Fin 2) rfl e

theorem dst_apply (c : Dev nD) (e : Fin 1000000) : dstVec m c (ix1 e) = eiArr m c (ix2 (1 : Fin 2) e) := by
  rw [dstVec_eq]
  exact row_apply (eiArr m c) 1 slices_S2x1000000_S1x1000000_1_0 (1 : Fin 2) rfl e

theorem w2_apply (c : Dev nD) (k : Fin 128) :
    w2Vec m c (ix1 k) = woArr m c (ix2 (0 : Fin 1) (Cert.EdgeScore.lo k)) := by
  rw [w2Vec_eq]
  exact (shapeCast_1a_a_apply _ shapeCasts_S1x128_S128 k).trans
    (slice2_axis1_apply 0 (woArr m c) slices_S1x256_S1x128_0_0 (0 : Fin 1) k (Cert.EdgeScore.lo k) (Nat.zero_add _).symm)

/-! ## The query ids -/

/-- The query-id vector as the operations compose it: the larger endpoint id of every edge, less the smallest such
    maximum repeated over the edges. -/
theorem qidVec_eq (c : Dev nD) : qidVec m c
    = subi (maxsi (srcVec m c) (dstVec m c))
        (broadcastInDim S1000000 ![] bcast_S_S1000000
          (Host.reduce IntOp.minsi (maxsi (srcVec m c) (dstVec m c)) (constantI S_ 32 2147483647#32)
            reducesTo_S1000000_S_d0 h_S_)) := by
  rw [srcVec_eq, dstVec_eq]
  show StableHlo.after hostOps0 (fun b => m (c, b)) (Proc.devRef .tc main_v7) = _
  after_results
  rfl

/-- The larger endpoint id of every edge, as a function of the edge list. -/
theorem maxVec_eq (c : Dev nD) : maxsi (srcVec m c) (dstVec m c) = Cert.EdgeScore.maxWord (eiArr m c) := by
  funext i
  obtain ⟨e, rfl⟩ : ∃ e : Fin 1000000, i = ix1 e := ⟨i 0, eq_ix1 i⟩
  show IntOp.maxsi (srcVec m c (ix1 e)) (dstVec m c (ix1 e)) = IntOp.maxsi (eiArr m c (ix2 0 e)) (eiArr m c (ix2 1 e))
  rw [src_apply, dst_apply]

/-- One word repeated over the edges reads that word at every edge. -/
theorem repeat_apply (R : S_.Idx → BitVec 32) (e : Fin 1000000) :
    broadcastInDim S1000000 ![] bcast_S_S1000000 R (ix1 e) = R ix0 :=
  broadcastInDim_apply ![] bcast_S_S1000000 R (ix1 e) ix0 (fun a => a.elim0)

/-- The smallest entry of a vector over the edges, as the operations fold it. -/
theorem minAll_eq (M : IVec Cert.EdgeScore.SEdges 32) :
    Host.reduce IntOp.minsi M (constantI S_ 32 2147483647#32) reducesTo_S1000000_S_d0 h_S_ ix0
      = Cert.EdgeScore.minAll M := rfl

theorem qid_apply (c : Dev nD) (e : Fin 1000000) :
    qidVec m c (ix1 e) = Cert.EdgeScore.qidWord (eiArr m c) e := by
  unfold Cert.EdgeScore.qidWord
  rw [qidVec_eq, maxVec_eq, ← minAll_eq]
  generalize Cert.EdgeScore.maxWord (eiArr m c) = M
  generalize Host.reduce IntOp.minsi M (constantI S_ 32 2147483647#32) reducesTo_S1000000_S_d0 h_S_ = R
  exact congrArg (IntOp.subi (M (ix1 e))) (repeat_apply R e)

/-! ## The two folded weight vectors -/

/-- The second weight vector as the operations compose it: the first layer's lower column block transposed, times the
    upper half of the second layer's row stood up as a column, flattened. -/
theorem w3Vec_eq (c : Dev nD) : w3Vec m c
    = shapeCast S128
        (Host.dotGeneral (F := Ideal) (φ₁ := .f32) (φ₂ := .f32) dot_S128x128_S128x1_S128x1_1_0_0_1_n_n none
          (transpose S128x128 [1, 0] (extractStridedSlice S128x128 ![0, 0] (wqArr m c) slices_S128x256_S128x128_0_0)
            transposes_S128x128_S128x128_1_0)
          (transpose S128x1 [1, 0] (extractStridedSlice S1x128 ![0, 128] (woArr m c) slices_S1x256_S1x128_0_128)
            transposes_S1x128_S128x1_1_0))
        shapeCasts_S128x1_S128 := by
  show StableHlo.after hostOps0 (fun b => m (c, b)) (Proc.devRef .tc main_v16) = _
  after_results
  rfl

/-- The third weight vector: the same with the first layer's upper column block. -/
theorem w4Vec_eq (c : Dev nD) : w4Vec m c
    = shapeCast S128
        (Host.dotGeneral (F := Ideal) (φ₁ := .f32) (φ₂ := .f32) dot_S128x128_S128x1_S128x1_1_0_0_1_n_n none
          (transpose S128x128 [1, 0] (extractStridedSlice S128x128 ![0, 128] (wqArr m c) slices_S128x256_S128x128_0_128)
            transposes_S128x128_S128x128_1_0)
          (transpose S128x1 [1, 0] (extractStridedSlice S1x128 ![0, 128] (woArr m c) slices_S1x256_S1x128_0_128)
            transposes_S1x128_S128x1_1_0))
        shapeCasts_S128x1_S128 := by
  show StableHlo.after hostOps0 (fun b => m (c, b)) (Proc.devRef .tc main_v20) = _
  after_results
  rfl

/-- The product's index maps: the left operand is read at (row of the result, contracted index), the right at
    (contracted index, column of the result). -/
theorem lhs_dot_0 (i : S128x1.Idx) (q : dot_S128x128_S128x1_S128x1_1_0_0_1_n_n.contr.Idx) :
    (dot_S128x128_S128x1_S128x1_1_0_0_1_n_n.lhsIdx i q 0).val = (i 0).val := by
  unfold DotDims.lhsIdx
  rw [dif_neg (show ¬(0 : Fin S128x128.rank) ∈ dot_S128x128_S128x1_S128x1_1_0_0_1_n_n.lhsBatch by decide), dif_pos (show (0 : Fin S128x128.rank) ∈ dot_S128x128_S128x1_S128x1_1_0_0_1_n_n.lhsNonContracting by decide)]
  rfl
theorem lhs_dot_1 (i : S128x1.Idx) (q : dot_S128x128_S128x1_S128x1_1_0_0_1_n_n.contr.Idx) :
    (dot_S128x128_S128x1_S128x1_1_0_0_1_n_n.lhsIdx i q 1).val = (q ⟨0, by decide⟩).val :=
  dot_S128x128_S128x1_S128x1_1_0_0_1_n_n.lhsIdx_val_of_single rfl i q
theorem rhs_dot_0 (i : S128x1.Idx) (q : dot_S128x128_S128x1_S128x1_1_0_0_1_n_n.contr.Idx) :
    (dot_S128x128_S128x1_S128x1_1_0_0_1_n_n.rhsIdx i q 0).val = (q ⟨0, by decide⟩).val :=
  dot_S128x128_S128x1_S128x1_1_0_0_1_n_n.rhsIdx_val_of_single rfl i q
theorem rhs_dot_1 (i : S128x1.Idx) (q : dot_S128x128_S128x1_S128x1_1_0_0_1_n_n.contr.Idx) :
    (dot_S128x128_S128x1_S128x1_1_0_0_1_n_n.rhsIdx i q 1).val = (i 1).val := by
  unfold DotDims.rhsIdx
  rw [dif_neg (show ¬(1 : Fin S128x1.rank) ∈ dot_S128x128_S128x1_S128x1_1_0_0_1_n_n.rhsBatch by decide), dif_pos (show (1 : Fin S128x1.rank) ∈ dot_S128x128_S128x1_S128x1_1_0_0_1_n_n.rhsNonContracting by decide)]
  rfl

/-- A [128,128] matrix times a [128,1] column at the ideal values: entry (k, u) is the sum over j of the matrix at
    (k, j) times the column at (j, u). -/
theorem dot_apply (l : FVec Ideal S128x128 .f32) (r : FVec Ideal S128x1 .f32) (k : Fin 128) (u : Fin 1) :
    Host.dotGeneral (F := Ideal) dot_S128x128_S128x1_S128x1_1_0_0_1_n_n none l r (ix2 k u)
      = ∑ j : Fin 128, l (ix2 k j) * r (ix2 j u) := by
  simp only [Host.dotGeneral]
  rw [Ideal.dotGeneral_apply, ← Equiv.sum_comp (contrEquiv1 dot_S128x128_S128x1_S128x1_1_0_0_1_n_n 128 rfl rfl).symm]
  refine Finset.sum_congr rfl fun j _ => ?_
  have hk := contrEquiv1_symm_val dot_S128x128_S128x1_S128x1_1_0_0_1_n_n 128 rfl rfl j
  have el : dot_S128x128_S128x1_S128x1_1_0_0_1_n_n.lhsIdx (ix2 k u) ((contrEquiv1 dot_S128x128_S128x1_S128x1_1_0_0_1_n_n 128 rfl rfl).symm j) = ix2 k j := funext fun a => Fin.ext (by
    match a with
    | ⟨0, _⟩ => exact lhs_dot_0 _ _
    | ⟨1, _⟩ => exact (lhs_dot_1 _ _).trans hk)
  have er : dot_S128x128_S128x1_S128x1_1_0_0_1_n_n.rhsIdx (ix2 k u) ((contrEquiv1 dot_S128x128_S128x1_S128x1_1_0_0_1_n_n 128 rfl rfl).symm j) = ix2 j u := funext fun a => Fin.ext (by
    match a with
    | ⟨0, _⟩ => exact (rhs_dot_0 _ _).trans hk
    | ⟨1, _⟩ => exact rhs_dot_1 _ _)
  rw [el, er]

/-- A [128,1] column flattened reads, at k, the column at (k, 0). -/
theorem flatten_apply {α : Type} (x : S128x1.Idx → α) (k : Fin 128) :
    shapeCast S128 x shapeCasts_S128x1_S128 (ix1 k) = x (ix2 k (0 : Fin 1)) :=
  shapeCast_apply x shapeCasts_S128x1_S128 _ _ (by
    rw [Shape.rowMajor_val_two, Shape.rowMajor_val_one]
    show k.val * 1 + 0 = k.val
    omega)

/-- A column block of the first layer's weights starting at column o, transposed, reads at (k, j) the weights at
    (j, o + k). -/
theorem blockT_apply (X : S128x256.Idx → EReal) (o : Nat) (h : S128x256.Slices ![0, o] S128x128) (k j : Fin 128)
    (l : Fin 256) (hl : l.val = o + k.val) :
    transpose S128x128 [1, 0] (extractStridedSlice S128x128 ![0, o] X h) transposes_S128x128_S128x128_1_0 (ix2 k j)
      = X (ix2 j l) :=
  (transpose_ix2_apply _ transposes_S128x128_S128x128_1_0 k j).trans (slice2_axis1_apply o X h j k l hl)

/-- The upper half of the second layer's row, stood up as a column, reads at (j, 0) the row at 128 + j. -/
theorem upperCol_apply (Y : S1x256.Idx → EReal) (j : Fin 128) :
    transpose S128x1 [1, 0] (extractStridedSlice S1x128 ![0, 128] Y slices_S1x256_S1x128_0_128)
        transposes_S1x128_S128x1_1_0 (ix2 j (0 : Fin 1))
      = Y (ix2 (0 : Fin 1) (Cert.EdgeScore.hi j)) :=
  (transpose_ix2_apply _ transposes_S1x128_S128x1_1_0 j (0 : Fin 1)).trans
    (slice2_axis1_apply 128 Y slices_S1x256_S1x128_0_128 (0 : Fin 1) j (Cert.EdgeScore.hi j) rfl)

theorem w3_apply (c : Dev nD) (k : Fin 128) :
    w3Vec m c (ix1 k)
      = Cert.EdgeScore.foldLower (fun j l => wqArr m c (ix2 j l)) (fun l => woArr m c (ix2 (0 : Fin 1) l)) k := by
  rw [w3Vec_eq]
  refine (flatten_apply _ k).trans ?_
  refine (dot_apply _ _ k (0 : Fin 1)).trans ?_
  unfold Cert.EdgeScore.foldLower
  refine Finset.sum_congr rfl fun j _ => ?_
  exact congrArg₂ (fun u v : EReal => u * v)
    (blockT_apply (wqArr m c) 0 slices_S128x256_S128x128_0_0 k j (Cert.EdgeScore.lo k) (Nat.zero_add _).symm)
    (upperCol_apply (woArr m c) j)

theorem w4_apply (c : Dev nD) (k : Fin 128) :
    w4Vec m c (ix1 k)
      = Cert.EdgeScore.foldUpper (fun j l => wqArr m c (ix2 j l)) (fun l => woArr m c (ix2 (0 : Fin 1) l)) k := by
  rw [w4Vec_eq]
  refine (flatten_apply _ k).trans ?_
  refine (dot_apply _ _ k (0 : Fin 1)).trans ?_
  unfold Cert.EdgeScore.foldUpper
  refine Finset.sum_congr rfl fun j _ => ?_
  exact congrArg₂ (fun u v : EReal => u * v)
    (blockT_apply (wqArr m c) 128 slices_S128x256_S128x128_0_128 k j (Cert.EdgeScore.hi k) rfl)
    (upperCol_apply (woArr m c) j)

end Cert.KernelIdeal.Pre

end
-- ==== Proof.KernelValue.lean ====
/-
  The kernel program's result, for every edge, is the kernel's form of the score.

  At edge `e` the operations after the region give `(a(row src e) + b(row dst e)) + c(row qid e)`. Row `r` of `a` is the
  node table's row `r` against the first weight vector, of `b` the same row against the second, of `c` the second table's
  row `r` against the third plus the bias. The three weight vectors are the second layer's lower half and the two folds of
  the first layer's column blocks with its upper half; the three ids are the edge's two endpoints and its query id. Put
  together this is `kernelScore` of the six arrays as launched.
-/
import proofs.«424262_j19078244729115_3_alg».proof.Proof.KernelTail
import proofs.«424262_j19078244729115_3_alg».proof.Proof.KernelPre
import proofs.«424262_j19078244729115_3_alg».proof.Proof.KernelArrays
import proofs.«424262_j19078244729115_3_alg».proof.Proof.Spec

set_option maxRecDepth 16384

noncomputable section

namespace Cert.KernelIdeal.Score

open Cert.KernelIdeal Cert.KernelIdeal.Gen
open Idealize.ShloMosaic Idealize.ShloMosaic.TcCoe Idealize.ShloMosaic.ValueIdx
open Idealize.SL.Sem
open Cert.EdgeScore

variable (m : (ℓ : Loc nD τ sig) → Buf (Elt Ideal) ℓ)

/-- The six arrays as launched, by their literal types. -/
abbrev zIn (c : Dev nD) : S100000x128.Idx → EReal := m ((c.tc : Thread nD τ).loc main_arg0)
abbrev eiIn (c : Dev nD) : S2x1000000.Idx → BitVec 32 := m ((c.tc : Thread nD τ).loc main_arg1)
abbrev z0In (c : Dev nD) : S100000x128.Idx → EReal := m ((c.tc : Thread nD τ).loc main_arg2)
abbrev wqIn (c : Dev nD) : S128x256.Idx → EReal := m ((c.tc : Thread nD τ).loc main_arg3)
abbrev woIn (c : Dev nD) : S1x256.Idx → EReal := m ((c.tc : Thread nD τ).loc main_arg4)
abbrev boIn (c : Dev nD) : S1.Idx → EReal := m ((c.tc : Thread nD τ).loc main_arg5)

/-- The region finds the two tables and the bias as launched. -/
theorem zArr_eq (c : Dev nD) : Arrays.zArr m c = zIn m c := by
  show V m c main_arg0 = _
  exact V_main_arg0 m c
theorem z0Arr_eq (c : Dev nD) : Arrays.z0Arr m c = z0In m c := by
  show V m c main_arg2 = _
  exact V_main_arg2 m c
theorem biasArr_eq (c : Dev nD) : Arrays.biasArr m c = boIn m c := by
  show V m c main_arg5 = _
  exact V_main_arg5 m c

/-- Row `r` of the three output arrays, over the arrays as launched. -/
theorem outA_apply (c : Dev nD) (r : Fin 100000) :
    Tail.outA m c (ix2 r (0 : Fin 1)) = ∑ k : Fin 128, zIn m c (ix2 r k) * woIn m c (ix2 (0 : Fin 1) (lo k)) := by
  refine (congrFun (Arrays.array6 m c) (ix2 r (0 : Fin 1))).trans ?_
  show ∑ k : Fin 128, Arrays.zArr m c (ix2 r k) * Pre.w2Vec m c (ix1 k) = _
  rw [zArr_eq]
  exact Finset.sum_congr rfl fun k _ => congrArg (fun w : EReal => zIn m c (ix2 r k) * w) (Pre.w2_apply m c k)

theorem outB_apply (c : Dev nD) (r : Fin 100000) :
    Tail.outB m c (ix2 r (0 : Fin 1))
      = ∑ k : Fin 128, zIn m c (ix2 r k) * foldLower (fun j l => wqIn m c (ix2 j l)) (fun l => woIn m c (ix2 (0 : Fin 1) l)) k := by
  refine (congrFun (Arrays.array7 m c) (ix2 r (0 : Fin 1))).trans ?_
  show ∑ k : Fin 128, Arrays.zArr m c (ix2 r k) * Pre.w3Vec m c (ix1 k) = _
  rw [zArr_eq]
  exact Finset.sum_congr rfl fun k _ => congrArg (fun w : EReal => zIn m c (ix2 r k) * w) (Pre.w3_apply m c k)

theorem outC_apply (c : Dev nD) (r : Fin 100000) :
    Tail.outC m c (ix2 r (0 : Fin 1))
      = (∑ k : Fin 128, z0In m c (ix2 r k) * foldUpper (fun j l => wqIn m c (ix2 j l)) (fun l => woIn m c (ix2 (0 : Fin 1) l)) k)
          + boIn m c (ix1 (0 : Fin 1)) := by
  refine (congrFun (Arrays.array8 m c) (ix2 r (0 : Fin 1))).trans ?_
  show (∑ k : Fin 128, Arrays.z0Arr m c (ix2 r k) * Pre.w4Vec m c (ix1 k)) + Arrays.biasArr m c (ix1 (0 : Fin 1)) = _
  rw [z0Arr_eq, biasArr_eq]
  exact congrArg (fun s : EReal => s + boIn m c (ix1 (0 : Fin 1)))
    (Finset.sum_congr rfl fun k _ => congrArg (fun w : EReal => z0In m c (ix2 r k) * w) (Pre.w4_apply m c k))

/-- THE KERNEL'S VALUE: the program's result array is `kernelScore` of the six arrays as launched. -/
theorem result_eq (c : Dev nD) :
    (Pipeline.afterTail₀ cfgs (dats (F := Ideal) m) 0 (V0 m) [hostOps1] c main_v47 : S1000000.Idx → EReal)
      = kernelScore (zIn m c) (eiIn m c) (z0In m c) (wqIn m c) (woIn m c) (boIn m c) := by
  funext i
  obtain ⟨e, rfl⟩ : ∃ e : Fin 1000000, i = ix1 e := ⟨i 0, eq_ix1 i⟩
  rw [Tail.result_apply m c e, outA_apply, outB_apply, outC_apply]
  have hs : Tail.srcIds m c (ix1 e) = eiIn m c (ix2 (0 : Fin 2) e) := Pre.src_apply m c e
  have hd : Tail.dstIds m c (ix1 e) = eiIn m c (ix2 (1 : Fin 2) e) := Pre.dst_apply m c e
  have hq : Tail.qidIds m c (ix1 e) = qidWord (eiIn m c) e := Pre.qid_apply m c e
  rw [hs, hd, hq]
  rfl

/-- THE KERNEL'S RUN with its result named: every weakly fair execution terminates, the result array at `kernelScore` of
    the arrays as launched, the six arguments unchanged (the frame run's post read at the result buffer, which no window
    stages, and at the arguments as the frame claim reads them). -/
theorem run (ρ : Dev nD → PrngReg) :
    θ_run defs (onTc (τ := τ) (main (F := Ideal))) ⟨m, fun _ => 0, ρ⟩ (fun r => ∀ c : Dev nD,
      r.2.mem ((c.tc : Thread nD τ).loc main_v47) = kernelScore (zIn m c) (eiIn m c) (z0In m c) (wqIn m c) (woIn m c) (boIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v47 (Pipeline.mem_restRefs_of main_v47 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.Score

end
-- ==== Proof.Algebra.lean ====
/-
  The two forms of an edge's score are equal when the second endpoint's row, the query row and the two weight
  arrays hold real numbers.

  Split each sum over the joined axis of length 256 into its two halves. The reference's score is then
  `(u · Wo_lower + hidden · Wo_upper) + bias` with `hidden j = v · Wq[j, lower] + q · Wq[j, upper]`, and the kernel's is
  `(u · Wo_lower + v · foldLower) + (q · foldUpper + bias)`. Over the reals `hidden · Wo_upper` distributes over the two
  sums that make up `hidden`, and exchanging the order of summation in each gives `v · foldLower + q · foldUpper`; the
  rest is associativity of the sum, which holds on the extended reals without any finiteness. The first endpoint's
  row `u` therefore needs no hypothesis.
-/
import proofs.«424262_j19078244729115_3_alg».proof.Proof.Spec
import Mathlib.Algebra.BigOperators.Fin
import Mathlib.Data.EReal.Basic
import Mathlib.Tactic.Ring

noncomputable section

namespace Cert.EdgeScore

open Finset

/-- A sum over the joined axis is the sum over its lower half plus the sum over its upper half. -/
theorem sum_joined (f : Fin 256 → EReal) :
    ∑ l : Fin 256, f l = (∑ k : Fin 128, f (lo k)) + ∑ k : Fin 128, f (hi k) :=
  Fin.sum_univ_add (a := 128) (b := 128) f

/-- The inclusion of the reals in the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the hidden vector against the upper half of `Wo` is the two folded dot products. -/
theorem hidden_dot_real (v q : Fin 128 → ℝ) (A B : Fin 128 → Fin 128 → ℝ) (w : Fin 128 → ℝ) :
    ∑ j : Fin 128, ((∑ k : Fin 128, v k * A j k) + ∑ k : Fin 128, q k * B j k) * w j
      = (∑ k : Fin 128, v k * ∑ j : Fin 128, A j k * w j) + ∑ k : Fin 128, q k * ∑ j : Fin 128, B j k * w j := by
  simp only [add_mul, Finset.sum_add_distrib, Finset.sum_mul, Finset.mul_sum]
  congr 1
  · rw [Finset.sum_comm]
    exact Finset.sum_congr rfl fun k _ => Finset.sum_congr rfl fun j _ => by ring
  · rw [Finset.sum_comm]
    exact Finset.sum_congr rfl fun k _ => Finset.sum_congr rfl fun j _ => by ring

/-- The same on the extended reals, for entries that are real numbers. -/
theorem hidden_dot (v q : Fin 128 → EReal) (Wq : Fin 128 → Fin 256 → EReal) (Wo : Fin 256 → EReal)
    (hv : ∀ k, v k ≠ ⊤ ∧ v k ≠ ⊥) (hq : ∀ k, q k ≠ ⊤ ∧ q k ≠ ⊥)
    (hWq : ∀ j l, Wq j l ≠ ⊤ ∧ Wq j l ≠ ⊥) (hWo : ∀ l, Wo l ≠ ⊤ ∧ Wo l ≠ ⊥) :
    ∑ j : Fin 128, hidden v q Wq j * Wo (hi j)
      = (∑ k : Fin 128, v k * foldLower Wq Wo k) + ∑ k : Fin 128, q k * foldUpper Wq Wo k := by
  have ev : ∀ k, ∃ r : ℝ, v k = (r : EReal) := fun k => ⟨(v k).toReal, (EReal.coe_toReal (hv k).1 (hv k).2).symm⟩
  have eq : ∀ k, ∃ r : ℝ, q k = (r : EReal) := fun k => ⟨(q k).toReal, (EReal.coe_toReal (hq k).1 (hq k).2).symm⟩
  have eW : ∀ j l, ∃ r : ℝ, Wq j l = (r : EReal) := fun j l =>
    ⟨(Wq j l).toReal, (EReal.coe_toReal (hWq j l).1 (hWq j l).2).symm⟩
  have eo : ∀ l, ∃ r : ℝ, Wo l = (r : EReal) := fun l => ⟨(Wo l).toReal, (EReal.coe_toReal (hWo l).1 (hWo l).2).symm⟩
  choose v' hv' using ev
  choose q' hq' using eq
  choose W' hW' using eW
  choose o' ho' using eo
  unfold hidden foldLower foldUpper
  simp only [sum_joined (fun l => join v q l * Wq _ l), join_lo, join_hi]
  simp only [hv', hq', hW', ho']
  simp only [← EReal.coe_mul, ← coe_sum, ← EReal.coe_add]
  exact congrArg _ (hidden_dot_real v' q' (fun j k => W' j (lo k)) (fun j k => W' j (hi k)) (fun j => o' (hi j)))

/-- THE LAW: one edge's score in the kernel's form is its score in the reference's form. -/
theorem kernelForm_eq_referenceForm (u v q : Fin 128 → EReal) (Wq : Fin 128 → Fin 256 → EReal) (Wo : Fin 256 → EReal) (bo : EReal)
    (hv : ∀ k, v k ≠ ⊤ ∧ v k ≠ ⊥) (hq : ∀ k, q k ≠ ⊤ ∧ q k ≠ ⊥)
    (hWq : ∀ j l, Wq j l ≠ ⊤ ∧ Wq j l ≠ ⊥) (hWo : ∀ l, Wo l ≠ ⊤ ∧ Wo l ≠ ⊥) :
    kernelForm u v q Wq Wo bo = referenceForm u v q Wq Wo bo := by
  unfold kernelForm referenceForm
  rw [sum_joined (fun l => join u (hidden v q Wq) l * Wo l)]
  simp only [join_lo, join_hi]
  rw [hidden_dot v q Wq Wo hv hq hWq hWo]
  simp only [add_assoc]

/-- For every edge at once: the two score arrays are equal when the two tables and the two weight arrays hold real
    numbers. -/
theorem kernelScore_eq_referenceScore
    (z : (⟨2, ![100000, 128]⟩ : Idealize.ShloMosaic.Shape).Idx → EReal) (ei : Idealize.ShloMosaic.IVec SPairs 32)
    (z0 : (⟨2, ![100000, 128]⟩ : Idealize.ShloMosaic.Shape).Idx → EReal)
    (Wq : (⟨2, ![128, 256]⟩ : Idealize.ShloMosaic.Shape).Idx → EReal) (Wo : (⟨2, ![1, 256]⟩ : Idealize.ShloMosaic.Shape).Idx → EReal)
    (bo : (⟨1, ![1]⟩ : Idealize.ShloMosaic.Shape).Idx → EReal)
    (hz : ∀ i, z i ≠ ⊤ ∧ z i ≠ ⊥) (hz0 : ∀ i, z0 i ≠ ⊤ ∧ z0 i ≠ ⊥)
    (hWq : ∀ i, Wq i ≠ ⊤ ∧ Wq i ≠ ⊥) (hWo : ∀ i, Wo i ≠ ⊤ ∧ Wo i ≠ ⊥) :
    kernelScore z ei z0 Wq Wo bo = referenceScore z ei z0 Wq Wo bo :=
  funext fun i => kernelForm_eq_referenceForm _ _ _ _ _ _ (fun _ => hz _) (fun _ => hz0 _) (fun _ _ => hWq _) (fun _ => hWo _)

end Cert.EdgeScore

end
-- ==== Proof.Finite.lean ====
/-
  The precondition says every entry of the five float arrays is a real number.

  The printed predicate is, for each float array, `all (|x| < +∞)`, the five results joined by `and`. An `and` that is 1
  has both sides 1; a reduction by `and` over every axis that is 1 met a 1 at every index; and on the extended reals
  `max x (−x) < ⊤` fails at both infinities (`|⊤| = |⊥| = ⊤`), so an entry that passes is neither.
-/
import proofs.«424262_j19078244729115_3_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- An extended real whose absolute value is below `+∞` (the f32 pattern `0x7F800000`) is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : x ≠ ⊤ ∧ x ≠ ⊥ := by
  have htop : Ideal.ofBits .f32 0x7F800000#32 = ⊤ := by simp [Ideal.ofBits, Ideal.ieee]
  have h' : Ideal.cmp .olt (max x (-x)) ⊤ = 1#1 := by rw [← htop]; exact h
  induction x using EReal.rec with
  | bot => simp [Ideal.cmp] at h'
  | top => simp [Ideal.cmp] at h'
  | coe r => exact ⟨EReal.coe_ne_top r, EReal.coe_ne_bot r⟩

/-- Under the precondition the two tables and the two weight arrays hold real numbers (so does the bias, which the
    law between the two forms does not need). -/
theorem real_of_pre [Cert.Pre_finite_inputs.Facts]
    (x0 : FVec Ideal S100000x128 .f32) (x1 : IVec S2x1000000 32) (x2 : FVec Ideal S100000x128 .f32)
    (x3 : FVec Ideal S128x256 .f32) (x4 : FVec Ideal S1x256 .f32) (x5 : FVec Ideal S1 .f32)
    (h : fn (F := Ideal) x0 x1 x2 x3 x4 x5 = fun _ => 1#1) :
    (∀ i, x0 i ≠ ⊤ ∧ x0 i ≠ ⊥) ∧ (∀ i, x2 i ≠ ⊤ ∧ x2 i ≠ ⊥) ∧ (∀ i, x3 i ≠ ⊤ ∧ x3 i ≠ ⊥) ∧ (∀ i, x4 i ≠ ⊤ ∧ x4 i ≠ ⊥) := by
  have h0 := congrFun h ValueIdx.ix0
  dsimp only [fn, fn_part1] at h0
  obtain ⟨h18, -⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  exact ⟨fun i => real_of_abs_lt_inf (x0 i) (Host.reduce_andi_all _ _ _ _ _ h3 i),
    fun i => real_of_abs_lt_inf (x2 i) (Host.reduce_andi_all _ _ _ _ _ h7 i),
    fun i => real_of_abs_lt_inf (x3 i) (Host.reduce_andi_all _ _ _ _ _ h12 i),
    fun i => real_of_abs_lt_inf (x4 i) (Host.reduce_andi_all _ _ _ _ _ h17 i)⟩

end Cert.Finite

end
-- ==== Proof.lean ====
/-
  The proof of `Cert.Claim`: the kernel and its idealization run and keep their arguments (the generated frames), the
  reference runs and keeps its arguments (its run), the idealization rewrote nothing, and at the ideal values the kernel
  and the reference end with equal results.

  The mathematics of the last claim. For every edge the reference gathers the node table's rows at the edge's two
  endpoints and the second table's row at its query id (the larger endpoint id less the smallest such maximum over all
  edges), joins the second endpoint's row with the query row, applies the first layer `Wq`, joins the first endpoint's
  row with that hidden vector, and applies the second layer `Wo` and the bias. The kernel, since nothing nonlinear
  separates the two layers, first folds them into three weight vectors of length 128, takes for every NODE the three dot
  products of its rows with them in one pass over the two tables (the bias added to the third), and for every edge adds
  the three per-node numbers at the same three rows. Both programs name the three rows by the same integer arithmetic and
  the same clamped gather, so they read the same rows on every input; and the two forms of the score agree once the
  tables and weights hold real numbers, which the precondition says: the product with the upper half of `Wo` distributes
  over the two sums that make up the hidden vector, and the order of the two summations is exchanged (module Algebra).
  The kernel's result is read off its frame run (modules KernelArrays, KernelPre, KernelTail, KernelValue), the
  reference's off its run one operation at a time (module RefValue).
-/
import proofs.«424262_j19078244729115_3_alg».proof.Defs
import proofs.«424262_j19078244729115_3_alg».proof.Proof.Gen.Kernel
import proofs.«424262_j19078244729115_3_alg».proof.Proof.Gen.Kernel.Skeleton
import proofs.«424262_j19078244729115_3_alg».proof.Proof.Gen.Kernel.Launch
import proofs.«424262_j19078244729115_3_alg».proof.Proof.Gen.Kernel.Points
import proofs.«424262_j19078244729115_3_alg».proof.Proof.Gen.Kernel.Frame
import proofs.«424262_j19078244729115_3_alg».proof.Proof.Gen.KernelIdeal
import proofs.«424262_j19078244729115_3_alg».proof.Proof.Gen.KernelIdeal.Skeleton
import proofs.«424262_j19078244729115_3_alg».proof.Proof.Gen.KernelIdeal.Launch
import proofs.«424262_j19078244729115_3_alg».proof.Proof.Gen.KernelIdeal.Points
import proofs.«424262_j19078244729115_3_alg».proof.Proof.Gen.KernelIdeal.Frame
import proofs.«424262_j19078244729115_3_alg».proof.Proof.Gen.ReferenceIdeal
import proofs.«424262_j19078244729115_3_alg».proof.Proof.Gen.Pre_finite_inputs
import proofs.«424262_j19078244729115_3_alg».proof.Proof.RefRun
import proofs.«424262_j19078244729115_3_alg».proof.Proof.RefRead
import proofs.«424262_j19078244729115_3_alg».proof.Proof.RefValue
import proofs.«424262_j19078244729115_3_alg».proof.Proof.KernelValue
import proofs.«424262_j19078244729115_3_alg».proof.Proof.Algebra
import proofs.«424262_j19078244729115_3_alg».proof.Proof.Finite
import Idealize.ShloMosaic.Adequacy
import Idealize.ShloMosaic.Init

noncomputable section

namespace Cert.Proof

open Idealize.ShloMosaic Idealize.SL.Sem

/-- The kernel as printed runs and keeps its arguments: its generated frame. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- At the ideal values, from memories that agree on the arguments, both programs end at the score of every edge: the
    kernel at its kernel form, the reference at its reference form, and the two forms are equal because the
    precondition makes the tables and weights real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.EdgeScore.kernelScore (Cert.KernelIdeal.Score.zIn m c) (Cert.KernelIdeal.Score.eiIn m c)
    (Cert.KernelIdeal.Score.z0In m c) (Cert.KernelIdeal.Score.wqIn m c) (Cert.KernelIdeal.Score.woIn m c)
    (Cert.KernelIdeal.Score.boIn m c), Cert.KernelIdeal.Score.run m ρ, ?_⟩
  refine (θ_run Cert.ReferenceIdeal.defs _ _).mono (fun _ h c => ⟨(h c).1.trans ?_, (h c).2⟩)
    (Cert.ReferenceIdeal.ValueP.run (F := Ideal) m' ρ')
  obtain ⟨hz, hz0, hWq, hWo⟩ := Cert.Finite.real_of_pre _ _ _ _ _ _ (hpre c)
  rw [Cert.ReferenceIdeal.ReadP.val_main_v38_eq, Cert.ReferenceIdeal.RefValue.ref_value,
    (hagree c).1, (hagree c).2.1, (hagree c).2.2.1, (hagree c).2.2.2.1, (hagree c).2.2.2.2.1, (hagree c).2.2.2.2.2]
  exact (Cert.EdgeScore.kernelScore_eq_referenceScore _ _ _ _ _ _ hz hz0 hWq hWo).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
